-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S16x1024x768 .f32) (main_arg1 : FVec F S2304x768 .f32) (main_arg2 : FVec F S768x768 .f32) (main_arg3 : FVec F S768 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S16x1024x768 : Shape := ⟨3, ![16, 1024, 768]⟩
abbrev S2304x768 : Shape := ⟨2, ![2304, 768]⟩
abbrev S768x768 : Shape := ⟨2, ![768, 768]⟩
abbrev S768 : Shape := ⟨1, ![768]⟩
abbrev S768x2304 : Shape := ⟨2, ![768, 2304]⟩
abbrev S1x768 : Shape := ⟨2, ![1, 768]⟩
abbrev S1x1024x768 : Shape := ⟨3, ![1, 1024, 768]⟩
abbrev S1024x2304 : Shape := ⟨2, ![1024, 2304]⟩
abbrev S1024x768 : Shape := ⟨2, ![1024, 768]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S16x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S768x2304, .f32⟩
  | .hbm, ⟨5, _⟩ => ⟨S768x2304, .bf16⟩
  | .hbm, ⟨6, _⟩ => ⟨S768x768, .f32⟩
  | .hbm, ⟨7, _⟩ => ⟨S768x768, .bf16⟩
  | .hbm, ⟨8, _⟩ => ⟨S1x768, .f32⟩
  | .hbm, ⟨9, _⟩ => ⟨S16x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S768x2304, .bf16⟩
  | .local _ .vmem, ⟨3, _⟩ => ⟨S768x768, .bf16⟩
  | .local _ .vmem, ⟨4, _⟩ => ⟨S1x768, .f32⟩
  | .local _ .vmem, ⟨5, _⟩ => ⟨S1x1024x768, .f32⟩
  | .local _ .vmem, ⟨6, _⟩ => ⟨S1x1024x768, .f32⟩
  | .local _ .vmem, ⟨7, _⟩ => ⟨S1024x2304, .bf16⟩
  | .local _ .vmem, ⟨8, _⟩ => ⟨S1024x768, .bf16⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c12_i32 : BitVec 32 := 12#32
  let v10 : BitVec 32 := Scalar.addi c0_i32 c12_i32
  let c1_i32 : BitVec 32 := 1#32
  ⟨c0_i32, v10, c1_i32⟩
def k0_off1 (k0_t1 : Fin k0_t1_loop.trips) : Fin 2 → Nat :=
  let c0_19 : Index := 0#32
  let c0_i32_18 : BitVec 32 := 0#32
  let c0_i32 : BitVec 32 := 0#32
  let c1_i32 : BitVec 32 := 1#32
  let arg8 : BitVec 32 := Scf.iv c0_i32 c1_i32 k0_t1
  let c1_i32_17 : BitVec 32 := 1#32
  let v22 : BitVec 32 := Scalar.muli arg8 c1_i32_17
  let v23 : BitVec 32 := Scalar.addi c0_i32_18 v22
  let c64_i32 : BitVec 32 := 64#32
  let v24 : BitVec 32 := Scalar.muli v23 c64_i32
  let v25 : Index := Scalar.indexCast v24
  ![0, v25.toNat]
def k0_off2 (k0_t1 : Fin k0_t1_loop.trips) (c768_i32 : BitVec 32) : Fin 2 → Nat :=
  let c0_21 : Index := 0#32
  let c0_i32_18 : BitVec 32 := 0#32
  let c0_i32 : BitVec 32 := 0#32
  let c1_i32 : BitVec 32 := 1#32
  let arg8 : BitVec 32 := Scf.iv c0_i32 c1_i32 k0_t1
  let c1_i32_17 : BitVec 32 := 1#32
  let v22 : BitVec 32 := Scalar.muli arg8 c1_i32_17
  let v23 : BitVec 32 := Scalar.addi c0_i32_18 v22
  let c64_i32_20 : BitVec 32 := 64#32
  let v27 : BitVec 32 := Scalar.muli v23 c64_i32_20
  let v28 : BitVec 32 := Scalar.addi c768_i32 v27
  let v29 : Index := Scalar.indexCast v28
  ![0, v29.toNat]
def k0_off3 (k0_t1 : Fin k0_t1_loop.trips) : Fin 2 → Nat :=
  let c0_30 : Index := 0#32
  let c0_i32_18 : BitVec 32 := 0#32
  let c0_i32 : BitVec 32 := 0#32
  let c1_i32 : BitVec 32 := 1#32
  let arg8 : BitVec 32 := Scf.iv c0_i32 c1_i32 k0_t1
  let c1_i32_17 : BitVec 32 := 1#32
  let v22 : BitVec 32 := Scalar.muli arg8 c1_i32_17
  let v23 : BitVec 32 := Scalar.addi c0_i32_18 v22
  let c64_i32_29 : BitVec 32 := 64#32
  let v50 : BitVec 32 := Scalar.muli v23 c64_i32_29
  let v51 : Index := Scalar.indexCast v50
  ![0, v51.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S2304x768_S768x2304_1_0 : S2304x768.Transposes [1, 0] S768x2304
  bitsLt_bf16_f32 : FTy.bits .bf16 < FTy.bits .f32
  transposes_S768x768_S768x768_1_0 : S768x768.Transposes [1, 0] S768x768
  shapeCasts_S768_S1x768 : S768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1024x2304_S1024x2304_0_0 : ∀ a, (![0, 0] : Fin 2 → Nat) a + S1024x2304.size a ≤ S1024x2304.size a
  h_S1024x2304 : 0 < S1024x2304.numel
  shapeCasts_S1024x2304_S1024x2304 : S1024x2304.ShapeCasts S1024x2304
  packedbf16_S1024x2304_S1024x2304_0_0 : (Rect.unit (s := S1024x2304) ![0, 0] S1024x2304.size inb_S1024x2304_S1024x2304_0_0).PackedRows (EltTy.packing .bf16)
  h_S1024x64 : 0 < S1024x64.numel
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1024x64 : S1024x64.ShapeCasts S1024x64
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S1024x768_S1024x768_0_0 : ∀ a, (![0, 0] : Fin 2 → Nat) a + S1024x768.size a ≤ S1024x768.size a
  h_S1024x768 : 0 < S1024x768.numel
  broadcasts_S1x768_S1024x768 : S1x768.Broadcasts S1024x768
  shapeCasts_S1024x768_S1x1024x768 : S1024x768.ShapeCasts S1x1024x768
  dot_S1024x768_S768x2304_S1024x2304_1_0_0_1_n_n_wf : DotDims.WF S1024x768 S768x2304 S1024x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x768_S768x768_S1024x768_1_0_0_1_n_n_wf : DotDims.WF S1024x768 S768x768 S1024x768 [1] [0] [0] [1] [] []
  hrank0 : 0 < grid0.rank
  k0_t1_ok : k0_t1_loop.OK
  k0_off1_inb : ∀ k0_t1 : Fin k0_t1_loop.trips, ∀ a, (k0_off1 k0_t1) a + S1024x64.size a ≤ S1024x2304.size a
  k0_off2_inb : ∀ k0_t1 : Fin k0_t1_loop.trips, ∀ (r : Fin 2), ∀ a, (k0_off2 k0_t1 (BitVec.ofNat 32 (768 + 768 * r.val))) a + S1024x64.size a ≤ S1024x2304.size a
  k0_off3_inb : ∀ k0_t1 : Fin k0_t1_loop.trips, ∀ a, (k0_off3 k0_t1) a + S1024x64.size a ≤ S1024x768.size a
  k0_off3_packedbf16 : ∀ k0_t1 : Fin k0_t1_loop.trips, (Rect.unit (s := S1024x768) (k0_off3 k0_t1) S1024x64.size (k0_off3_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x1024x768.size a
  hwx0_0 : ∀ i : grid0.Coords, EltTy.bits .f32 = 32 ∨ (Rect.block (s := S16x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S16x1024x768.size a
  hwx0_4 : ∀ i : grid0.Coords, EltTy.bits .f32 = 32 ∨ (Rect.block (s := S16x1024x768) S1x1024x768.size (cc0_transform_4 i) (hinb0_4 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S2304x768 : Shape := ⟨2, ![2304, 768]⟩
abbrev S768x768 : Shape := ⟨2, ![768, 768]⟩
abbrev S768 : Shape := ⟨1, ![768]⟩
abbrev S16x1024x2304 : Shape := ⟨3, ![16, 1024, 2304]⟩
abbrev S16x1024x3x12x64 : Shape := ⟨5, ![16, 1024, 3, 12, 64]⟩
abbrev S3x16x12x1024x64 : Shape := ⟨5, ![3, 16, 12, 1024, 64]⟩
abbrev S1x16x12x1024x64 : Shape := ⟨5, ![1, 16, 12, 1024, 64]⟩
abbrev S16x12x1024x64 : Shape := ⟨4, ![16, 12, 1024, 64]⟩
abbrev S16x12x1024x1024 : Shape := ⟨4, ![16, 12, 1024, 1024]⟩
abbrev S_ : Shape := ⟨0, ![]⟩
abbrev S16x12x1024 : Shape := ⟨3, ![16, 12, 1024]⟩
abbrev S16x12x1024x1 : Shape := ⟨4, ![16, 12, 1024, 1]⟩
abbrev S16x1024x12x64 : Shape := ⟨4, ![16, 1024, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S16x1024x2304, .f32⟩
  | .hbm, ⟨5, _⟩ => ⟨S16x1024x3x12x64, .f32⟩
  | .hbm, ⟨6, _⟩ => ⟨S3x16x12x1024x64, .f32⟩
  | .hbm, ⟨7, _⟩ => ⟨S1x16x12x1024x64, .f32⟩
  | .hbm, ⟨8, _⟩ => ⟨S16x12x1024x64, .f32⟩
  | .hbm, ⟨9, _⟩ => ⟨S1x16x12x1024x64, .f32⟩
  | .hbm, ⟨10, _⟩ => ⟨S16x12x1024x64, .f32⟩
  | .hbm, ⟨11, _⟩ => ⟨S1x16x12x1024x64, .f32⟩
  | .hbm, ⟨12, _⟩ => ⟨S16x12x1024x64, .f32⟩
  | .hbm, ⟨13, _⟩ => ⟨S16x12x1024x1024, .f32⟩
  | .hbm, ⟨14, _⟩ => ⟨S_, .f32⟩
  | .hbm, ⟨15, _⟩ => ⟨S16x12x1024x1024, .f32⟩
  | .hbm, ⟨16, _⟩ => ⟨S16x12x1024x1024, .f32⟩
  | .hbm, ⟨17, _⟩ => ⟨S_, .f32⟩
  | .hbm, ⟨18, _⟩ => ⟨S16x12x1024, .f32⟩
  | .hbm, ⟨19, _⟩ => ⟨S_, .f32⟩
  | .hbm, ⟨20, _⟩ => ⟨S16x12x1024, .f32⟩
  | .hbm, ⟨21, _⟩ => ⟨S16x12x1024, .f32⟩
  | .hbm, ⟨22, _⟩ => ⟨S16x12x1024x1, .f32⟩
  | .hbm, ⟨23, _⟩ => ⟨S16x12x1024x1024, .f32⟩
  | .hbm, ⟨24, _⟩ => ⟨S16x12x1024x1024, .f32⟩
  | .hbm, ⟨25, _⟩ => ⟨S16x12x1024x1024, .f32⟩
  | .hbm, ⟨26, _⟩ => ⟨S_, .f32⟩
  | .hbm, ⟨27, _⟩ => ⟨S16x12x1024, .f32⟩
  | .hbm, ⟨28, _⟩ => ⟨S16x12x1024x1, .f32⟩
  | .hbm, ⟨29, _⟩ => ⟨S16x12x1024x1024, .f32⟩
  | .hbm, ⟨30, _⟩ => ⟨S16x12x1024x1024, .f32⟩
  | .hbm, ⟨31, _⟩ => ⟨S16x12x1024x64, .f32⟩
  | .hbm, ⟨32, _⟩ => ⟨S16x1024x12x64, .f32⟩
  | .hbm, ⟨33, _⟩ => ⟨S16x1024x768, .f32⟩
  | .hbm, ⟨34, _⟩ => ⟨S16x1024x768, .f32⟩
  | .hbm, ⟨35, _⟩ => ⟨S1x1x768, .f32⟩
  | .hbm, ⟨36, _⟩ => ⟨S16x1024x768, .f32⟩
  | .hbm, ⟨37, _⟩ => ⟨S16x1024x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S16x1024x2304_S16x1024x3x12x64 : S16x1024x2304.ShapeCasts S16x1024x3x12x64
  transposes_S16x1024x3x12x64_S3x16x12x1024x64_2_0_3_1_4 : S16x1024x3x12x64.Transposes [2, 0, 3, 1, 4] S3x16x12x1024x64
  slices_S3x16x12x1024x64_S1x16x12x1024x64_0_0_0_0_0 : S3x16x12x1024x64.Slices ![0, 0, 0, 0, 0] S1x16x12x1024x64
  shapeCasts_S1x16x12x1024x64_S16x12x1024x64 : S1x16x12x1024x64.ShapeCasts S16x12x1024x64
  slices_S3x16x12x1024x64_S1x16x12x1024x64_1_0_0_0_0 : S3x16x12x1024x64.Slices ![1, 0, 0, 0, 0] S1x16x12x1024x64
  slices_S3x16x12x1024x64_S1x16x12x1024x64_2_0_0_0_0 : S3x16x12x1024x64.Slices ![2, 0, 0, 0, 0] S1x16x12x1024x64
  bcast_S_S16x12x1024x1024 : S_.BroadcastsInDim S16x12x1024x1024 (![] : Fin 0 → Fin S16x12x1024x1024.rank)
  reducesTo_S16x12x1024x1024_S16x12x1024_d3 : S16x12x1024x1024.ReducesTo [3] S16x12x1024
  h_S_ : 0 < S_.numel
  bcast_S_S16x12x1024 : S_.BroadcastsInDim S16x12x1024 (![] : Fin 0 → Fin S16x12x1024.rank)
  bcast_S16x12x1024_S16x12x1024x1_0_1_2 : S16x12x1024.BroadcastsInDim S16x12x1024x1 (![0, 1, 2] : Fin 3 → Fin S16x12x1024x1.rank)
  bcast_S16x12x1024x1_S16x12x1024x1024_0_1_2_3 : S16x12x1024x1.BroadcastsInDim S16x12x1024x1024 (![0, 1, 2, 3] : Fin 4 → Fin S16x12x1024x1024.rank)
  transposes_S16x12x1024x64_S16x1024x12x64_0_2_1_3 : S16x12x1024x64.Transposes [0, 2, 1, 3] S16x1024x12x64
  shapeCasts_S16x1024x12x64_S16x1024x768 : S16x1024x12x64.ShapeCasts S16x1024x768
  bcast_S768_S1x1x768_2 : S768.BroadcastsInDim S1x1x768 (![2] : Fin 1 → Fin S1x1x768.rank)
  bcast_S1x1x768_S16x1024x768_0_1_2 : S1x1x768.BroadcastsInDim S16x1024x768 (![0, 1, 2] : Fin 3 → Fin S16x1024x768.rank)
  dot_S16x1024x768_S2304x768_S16x1024x2304_2_1_01_0_n_n_wf : DotDims.WF S16x1024x768 S2304x768 S16x1024x2304 [2] [1] [0, 1] [0] [] []
  dot_S16x12x1024x64_S16x12x1024x64_S16x12x1024x1024_3_3_2_2_01_01_wf : DotDims.WF S16x12x1024x64 S16x12x1024x64 S16x12x1024x1024 [3] [3] [2] [2] [0, 1] [0, 1]
  dot_S16x12x1024x1024_S16x12x1024x64_S16x12x1024x64_3_2_2_3_01_01_wf : DotDims.WF S16x12x1024x1024 S16x12x1024x64 S16x12x1024x64 [3] [2] [2] [3] [0, 1] [0, 1]
  dot_S16x1024x768_S768x768_S16x1024x768_2_1_01_0_n_n_wf : DotDims.WF S16x1024x768 S768x768 S16x1024x768 [2] [1] [0, 1] [0] [] []

variable [Facts₀]

def dot_S16x1024x768_S2304x768_S16x1024x2304_2_1_01_0_n_n : DotDims S16x1024x768 S2304x768 S16x1024x2304 where
  lhsContracting := [2]
  rhsContracting := [1]
  lhsNonContracting := [0, 1]
  rhsNonContracting := [0]
  lhsBatch := []
  rhsBatch := []
  wf := dot_S16x1024x768_S2304x768_S16x1024x2304_2_1_01_0_n_n_wf
def dot_S16x12x1024x64_S16x12x1024x64_S16x12x1024x1024_3_3_2_2_01_01 : DotDims S16x12x1024x64 S16x12x1024x64 S16x12x1024x1024 where
  lhsContracting := [3]
  rhsContracting := [3]
  lhsNonContracting := [2]
  rhsNonContracting := [2]
  lhsBatch := [0, 1]
  rhsBatch := [0, 1]
  wf := dot_S16x12x1024x64_S16x12x1024x64_S16x12x1024x1024_3_3_2_2_01_01_wf
def dot_S16x12x1024x1024_S16x12x1024x64_S16x12x1024x64_3_2_2_3_01_01 : DotDims S16x12x1024x1024 S16x12x1024x64 S16x12x1024x64 where
  lhsContracting := [3]
  rhsContracting := [2]
  lhsNonContracting := [2]
  rhsNonContracting := [3]
  lhsBatch := [0, 1]
  rhsBatch := [0, 1]
  wf := dot_S16x12x1024x1024_S16x12x1024x64_S16x12x1024x64_3_2_2_3_01_01_wf
def dot_S16x1024x768_S768x768_S16x1024x768_2_1_01_0_n_n : DotDims S16x1024x768 S768x768 S16x1024x768 where
  lhsContracting := [2]
  rhsContracting := [1]
  lhsNonContracting := [0, 1]
  rhsNonContracting := [0]
  lhsBatch := []
  rhsBatch := []
  wf := dot_S16x1024x768_S768x768_S16x1024x768_2_1_01_0_n_n_wf

class Facts : Prop extends Facts₀ where

variable [Facts]
-- ==== Proof.KernelScratch.lean ====
/-
  What the kernel body leaves in its output block, as one function of its four input blocks.

  The body first stores the fused projection `Q = k0_pay1 x0 x1` (rows × 2304) whole into its first scratch array. Trip
  `k` of its counted loop (one trip per head, 12 of them) loads three 1024 × 64 column blocks of that array — the
  head's queries at columns `64·k …`, its keys at `768 + 64·k …`, its values at `1536 + 64·k …` — and stores what
  `k0_pay2` computes of them (`headBlock Q k`) into columns `64·k … 64·k + 63` of the second scratch array (rows ×
  768). The twelve stored blocks are disjoint and fill that array, so after the loop it holds ONE function of `Q`:
  at column `c`, head `c / 64`'s block at column `c % 64` (`attnBlock Q`), whatever it held before. The body then
  loads it whole and stores `k0_pay3 x2 x3` of it as the output block.
-/
import proofs.«407775_j4569845203330_3_alg».proof.Proof.KernelIdealP.Frame
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.GenP Idealize.ShloMosaic Idealize.ShloMosaic.TcCoe
open Idealize.ShloMosaic.Tactic Idealize.SL.Sem Idealize.ShloMosaic.ValueIdx

variable {F : FTy → Type} [FloatOps F]

/-- The loop runs one trip per head. -/
theorem trips_eq : k0_t1_loop.trips = 12 := by decide +kernel

/-- What trip `k` stores: `k0_pay2` of the head's query, key and value column blocks of `Q`. -/
def headBlock (Q : Vec F S1024x2304 .bf16) (k : Fin k0_t1_loop.trips) : Vec F S1024x64 .bf16 :=
  k0_pay2 (View.ld Q (Rect.unit (s := S1024x2304) (k0_off1 k) S1024x64.size (k0_off1_inb k)))
    (View.ld Q (Rect.unit (s := S1024x2304) (k0_off2 k 768#32) S1024x64.size (k0_off2_inb k 0)))
    (View.ld Q (Rect.unit (s := S1024x2304) (k0_off2 k 1536#32) S1024x64.size (k0_off2_inb k 1)))

/-- The head a column of the rows × 768 array belongs to. -/
def headOfCol (y : S1024x768.Idx) : Fin k0_t1_loop.trips :=
  ⟨(y 1).val / 64, by rw [trips_eq]; have h : (y 1).val < 768 := (y 1).isLt; omega⟩

/-- The index inside that head's 1024 × 64 block. -/
def inHead (y : S1024x768.Idx) : S1024x64.Idx :=
  ix2 (⟨(y 0).val, (y 0).isLt⟩ : Fin 1024) (⟨(y 1).val % 64, Nat.mod_lt _ (by norm_num)⟩ : Fin 64)

/-- The twelve heads' blocks side by side: the second scratch array after the loop, as a function of `Q`. -/
def attnBlock (Q : Vec F S1024x2304 .bf16) : Vec F S1024x768 .bf16 :=
  fun y => headBlock Q (headOfCol y) (inHead y)

/-- Trip `k`'s one piece: the head's block, stored at columns `64·k …`. -/
theorem tripL_eq (𝒱 : Variants) (c : Dev nD) (bd : Option 𝒱.V) (i : grid0.Coords) (arg1 : Memref sig .tc .vmem S1x1024x768 .f32) (harg1 : arg1.IsWhole) (arg2 : Memref sig .tc .vmem S768x2304 .bf16) (harg2 : arg2.IsWhole) (arg3 : Memref sig .tc .vmem S768x768 .bf16) (harg3 : arg3.IsWhole) (arg4 : Memref sig .tc .vmem S1x768 .f32) (harg4 : arg4.IsWhole) (arg5 : Memref sig .tc .vmem S1x1024x768 .f32) (harg5 : arg5.IsWhole) (arg6 : Memref sig .tc .vmem S1024x2304 .bf16) (harg6 : arg6.IsWhole) (arg7 : Memref sig .tc .vmem S1024x768 .bf16) (harg7 : arg7.IsWhole)
    (X : BufTy.Contents (Elt F) arg6.view.ty) (k : Fin k0_t1_loop.trips) :
    tripL_k0_t1 (F := F) 𝒱 c bd i arg1 harg1 arg2 harg2 arg3 harg3 arg4 harg4 arg5 harg5 arg6 harg6 arg7 harg7 X k
      = [⟨Rect.unit (s := S1024x768) (k0_off3 k) S1024x64.size (k0_off3_inb k), headBlock (arg6.view.read (Elt F) X) k⟩] := by
  unfold tripL_k0_t1 trip_k0_t1
  rfl

/-- A piece of the trips before `n` is some head's block at that head's columns. -/
theorem pieces_pb (𝒱 : Variants) (c : Dev nD) (bd : Option 𝒱.V) (i : grid0.Coords) (arg1 : Memref sig .tc .vmem S1x1024x768 .f32) (harg1 : arg1.IsWhole) (arg2 : Memref sig .tc .vmem S768x2304 .bf16) (harg2 : arg2.IsWhole) (arg3 : Memref sig .tc .vmem S768x768 .bf16) (harg3 : arg3.IsWhole) (arg4 : Memref sig .tc .vmem S1x768 .f32) (harg4 : arg4.IsWhole) (arg5 : Memref sig .tc .vmem S1x1024x768 .f32) (harg5 : arg5.IsWhole) (arg6 : Memref sig .tc .vmem S1024x2304 .bf16) (harg6 : arg6.IsWhole) (arg7 : Memref sig .tc .vmem S1024x768 .bf16) (harg7 : arg7.IsWhole)
    (X : BufTy.Contents (Elt F) arg6.view.ty) :
    ∀ (n : ℕ) (p : View.Piece (Elt F) S1024x768 .bf16), p ∈ pb_k0_t1 (F := F) 𝒱 c bd i arg1 harg1 arg2 harg2 arg3 harg3 arg4 harg4 arg5 harg5 arg6 harg6 arg7 harg7 X n →
      ∃ k : Fin k0_t1_loop.trips,
        p = ⟨Rect.unit (s := S1024x768) (k0_off3 k) S1024x64.size (k0_off3_inb k), headBlock (arg6.view.read (Elt F) X) k⟩
  | 0, p, hp => by rw [pb_k0_t1.eq_1] at hp; exact absurd hp List.not_mem_nil
  | n + 1, p, hp => by
    rw [pb_k0_t1.eq_2] at hp
    unfold pb_k0_t1Step at hp
    by_cases h : n < k0_t1_loop.trips
    · rw [dif_pos h, List.mem_append, tripL_eq, List.mem_singleton] at hp
      rcases hp with hp | hp
      · exact ⟨⟨n, h⟩, hp⟩
      · exact pieces_pb 𝒱 c bd i arg1 harg1 arg2 harg2 arg3 harg3 arg4 harg4 arg5 harg5 arg6 harg6 arg7 harg7 X n p hp
    · rw [dif_neg h] at hp
      exact pieces_pb 𝒱 c bd i arg1 harg1 arg2 harg2 arg3 harg3 arg4 harg4 arg5 harg5 arg6 harg6 arg7 harg7 X n p hp

/-- Head `k`'s block is `attnBlock` read through the rectangle of its columns: the index `64·k + x₁` has head `k` and
    in-head column `x₁`. -/
theorem headBlock_eq_attnBlock (Q : Vec F S1024x2304 .bf16) (k : Fin k0_t1_loop.trips)
    (x : (Rect.unit (s := S1024x768) (k0_off3 k) S1024x64.size (k0_off3_inb k)).shape.Idx) :
    headBlock Q k x = attnBlock Q ((Rect.unit (s := S1024x768) (k0_off3 k) S1024x64.size (k0_off3_inb k)).emb x) := by
  have h1 : (x 1).val < 64 := (x 1).isLt
  have e0 : k0_off3 k 0 = 0 := by rw [k0_off3_eq k]; rfl
  have e1 : k0_off3 k 1 = 64 * k.val := by rw [k0_off3_eq k]; rfl
  have hk : headOfCol ((Rect.unit (s := S1024x768) (k0_off3 k) S1024x64.size (k0_off3_inb k)).emb x) = k := by
    refine Fin.ext ?_
    show (k0_off3 k 1 + 1 * (x 1).val) / 64 = k.val
    omega
  have hx : inHead ((Rect.unit (s := S1024x768) (k0_off3 k) S1024x64.size (k0_off3_inb k)).emb x) = x := by
    funext a
    refine Fin.ext ?_
    match a with
    | ⟨0, _⟩ =>
      show k0_off3 k 0 + 1 * (x 0).val = (x 0).val
      omega
    | ⟨1, _⟩ =>
      show (k0_off3 k 1 + 1 * (x 1).val) % 64 = (x 1).val
      omega
  unfold attnBlock
  rw [hk, hx]

/-- The twelve trips' pieces read back as ONE function: `attnBlock` of what the first scratch array holds. -/
theorem canon_pb (𝒱 : Variants) (c : Dev nD) (bd : Option 𝒱.V) (i : grid0.Coords) (arg1 : Memref sig .tc .vmem S1x1024x768 .f32) (harg1 : arg1.IsWhole) (arg2 : Memref sig .tc .vmem S768x2304 .bf16) (harg2 : arg2.IsWhole) (arg3 : Memref sig .tc .vmem S768x768 .bf16) (harg3 : arg3.IsWhole) (arg4 : Memref sig .tc .vmem S1x768 .f32) (harg4 : arg4.IsWhole) (arg5 : Memref sig .tc .vmem S1x1024x768 .f32) (harg5 : arg5.IsWhole) (arg6 : Memref sig .tc .vmem S1024x2304 .bf16) (harg6 : arg6.IsWhole) (arg7 : Memref sig .tc .vmem S1024x768 .bf16) (harg7 : arg7.IsWhole)
    (X : BufTy.Contents (Elt F) arg6.view.ty) :
    View.canon (pb_k0_t1 (F := F) 𝒱 c bd i arg1 harg1 arg2 harg2 arg3 harg3 arg4 harg4 arg5 harg5 arg6 harg6 arg7 harg7 X (Scf.trips k0_t1_loop.lb k0_t1_loop.ub k0_t1_loop.st))
      = attnBlock (arg6.view.read (Elt F) X) := by
  funext y
  refine View.canon_apply_of_pieces (attnBlock (arg6.view.read (Elt F) X)) _ (fun p hp x => ?_) y
    (View.cover_of_tiledL (s := S1024x768) _ S1024x64.size (by sl_kernel_rfl) y)
  obtain ⟨k, rfl⟩ := pieces_pb 𝒱 c bd i arg1 harg1 arg2 harg2 arg3 harg3 arg4 harg4 arg5 harg5 arg6 harg6 arg7 harg7 X _ p hp
  exact headBlock_eq_attnBlock _ k x

/-- All-zero offsets, at rank three and two. -/
theorem zeros3 : (![0, 0, 0] : Fin 3 → ℕ) = fun _ => 0 := by
  funext a; match a with | ⟨0, _⟩ => rfl | ⟨1, _⟩ => rfl | ⟨2, _⟩ => rfl
theorem zeros2 : (![0, 0] : Fin 2 → ℕ) = fun _ => 0 := by
  funext a; match a with | ⟨0, _⟩ => rfl | ⟨1, _⟩ => rfl

/-- THE OUTPUT BLOCK of one run of the body: `k0_pay3` of the weights' and the bias's blocks and of the twelve heads' blocks
    of the fused projection `k0_pay1 x0 x1`, whatever memrefs the blocks are staged in and whatever the scratch arrays held. -/
theorem out0_A_4_eq (c : Dev nD) (i : grid0.Coords) (arg1 : Memref sig .tc .vmem S1x1024x768 .f32) (harg1 : arg1.IsWhole) (arg2 : Memref sig .tc .vmem S768x2304 .bf16) (harg2 : arg2.IsWhole) (arg3 : Memref sig .tc .vmem S768x768 .bf16) (harg3 : arg3.IsWhole) (arg4 : Memref sig .tc .vmem S1x768 .f32) (harg4 : arg4.IsWhole) (arg5 : Memref sig .tc .vmem S1x1024x768 .f32) (harg5 : arg5.IsWhole) (arg6 : Memref sig .tc .vmem S1024x2304 .bf16) (harg6 : arg6.IsWhole) (arg7 : Memref sig .tc .vmem S1024x768 .bf16) (harg7 : arg7.IsWhole)
    (x0 : Vec F S1x1024x768 .f32) (x1 : Vec F S768x2304 .bf16) (x2 : Vec F S768x768 .bf16) (x3 : Vec F S1x768 .f32) :
    out0_A_4 c i arg1 harg1 arg2 harg2 arg3 harg3 arg4 harg4 arg5 harg5 arg6 harg6 arg7 harg7 x0 x1 x2 x3 = k0_pay3 x2 x3 (attnBlock (k0_pay1 x0 x1)) := by
  unfold out0_A_4
  rw [View.read_writes_junk_eq_canon]
  unfold kernelRun0_A
  dsimp only
  rw [View.canon_unit_zero (S := S1x1024x768) zeros3, canon_pb, View.read_writes_junk_eq_canon,
    View.canon_unit_zero (S := S1024x2304) zeros2]
  simp only [View.readAt_eq_ld, harg1.read_unread, harg2.read_unread, harg3.read_unread, harg4.read_unread,
    View.ld_unit_zero (S := S1x1024x768) zeros3, View.ld_unit_zero (S := S768x2304) zeros2,
    View.ld_unit_zero (S := S768x768) zeros2, View.ld_unit_zero (S := S1x768) zeros2,
    View.ld_unit_zero (S := S1024x768) zeros2]

end Cert.KernelIdeal.KV

end
-- ==== Proof.KernelPayProj.lean ====
/-
  The body's two projections read at an index, on the extended reals.

  `k0_pay1` is the fused projection of one batch row: a matrix product into a zero accumulator, the changes of float
  format around it the identity, so at `(n, e)` it is `∑ c, x0[0, n, c] · x1[c, e]`. `k0_pay3` is the output projection
  and its bias: at `(0, n, o)` it is `(∑ c, A[n, c] · w[c, o]) + b[0, o]`, the bias row broadcast down the rows.
-/
import proofs.«407775_j4569845203330_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KP

open Cert.KernelIdeal Cert.KernelIdeal.Gen Idealize.ShloMosaic Idealize.ShloMosaic.ValueIdx

/-! ## The fused projection: contraction of axis 1 of the row block with axis 0 of the weights -/

/-- Left operand of the product, axis 0 (not contracted): the output's row. -/
theorem lhs_pay1_0 (i : S1024x2304.Idx) (q : dot_S1024x768_S768x2304_S1024x2304_1_0_0_1_n_n.contr.Idx) :
    (dot_S1024x768_S768x2304_S1024x2304_1_0_0_1_n_n.lhsIdx i q 0).val = (i 0).val := by
  unfold DotDims.lhsIdx
  rw [dif_neg (show ¬(0 : Fin S1024x768.rank) ∈ dot_S1024x768_S768x2304_S1024x2304_1_0_0_1_n_n.lhsBatch by decide), dif_pos (show (0 : Fin S1024x768.rank) ∈ dot_S1024x768_S768x2304_S1024x2304_1_0_0_1_n_n.lhsNonContracting by decide)]
  rfl
/-- Left operand, axis 1 (the contracted one): the contraction index's one coordinate. -/
theorem lhs_pay1_1 (i : S1024x2304.Idx) (q : dot_S1024x768_S768x2304_S1024x2304_1_0_0_1_n_n.contr.Idx) :
    (dot_S1024x768_S768x2304_S1024x2304_1_0_0_1_n_n.lhsIdx i q 1).val = (q ⟨0, by decide⟩).val :=
  dot_S1024x768_S768x2304_S1024x2304_1_0_0_1_n_n.lhsIdx_val_of_single rfl i q
/-- Right operand, axis 0 (the contracted one): the contraction index's one coordinate. -/
theorem rhs_pay1_0 (i : S1024x2304.Idx) (q : dot_S1024x768_S768x2304_S1024x2304_1_0_0_1_n_n.contr.Idx) :
    (dot_S1024x768_S768x2304_S1024x2304_1_0_0_1_n_n.rhsIdx i q 0).val = (q ⟨0, by decide⟩).val :=
  dot_S1024x768_S768x2304_S1024x2304_1_0_0_1_n_n.rhsIdx_val_of_single rfl i q
/-- Right operand, axis 1 (not contracted): the output's column. -/
theorem rhs_pay1_1 (i : S1024x2304.Idx) (q : dot_S1024x768_S768x2304_S1024x2304_1_0_0_1_n_n.contr.Idx) :
    (dot_S1024x768_S768x2304_S1024x2304_1_0_0_1_n_n.rhsIdx i q 1).val = (i 1).val := by
  unfold DotDims.rhsIdx
  rw [dif_neg (show ¬(1 : Fin S768x2304.rank) ∈ dot_S1024x768_S768x2304_S1024x2304_1_0_0_1_n_n.rhsBatch by decide), dif_pos (show (1 : Fin S768x2304.rank) ∈ dot_S1024x768_S768x2304_S1024x2304_1_0_0_1_n_n.rhsNonContracting by decide)]
  rfl

/-- The fused projection of a batch row at `(n, e)`. -/
theorem pay1_apply (x0 : Vec Ideal S1x1024x768 .f32) (x1 : Vec Ideal S768x2304 .bf16) (n : Fin 1024) (e : Fin 2304) :
    k0_pay1 (F := Ideal) x0 x1 (ix2 n e) = ∑ c : Fin 768, x0 (ix3 (0 : Fin 1) n c) * x1 (ix2 c e) := by
  unfold k0_pay1
  -- the cast to the same shape and the change of format are the identity on extended reals
  refine (congrFun (shapeCast_self _ _) _).trans ?_
  rw [truncf_apply]
  -- into the zero accumulator the product at `(n, e)` is the sum over the contraction index alone
  refine (Ideal.matmul_constant_zero_apply _ none _ _ _).trans ?_
  -- the contraction index has one axis of extent 768: sum over its coordinate `k` instead
  rw [← Equiv.sum_comp (contrEquiv1 dot_S1024x768_S768x2304_S1024x2304_1_0_0_1_n_n 768 rfl rfl).symm]
  refine Finset.sum_congr rfl fun k _ => ?_
  have hk := contrEquiv1_symm_val dot_S1024x768_S768x2304_S1024x2304_1_0_0_1_n_n 768 rfl rfl k
  have el : dot_S1024x768_S768x2304_S1024x2304_1_0_0_1_n_n.lhsIdx (ix2 n e) ((contrEquiv1 dot_S1024x768_S768x2304_S1024x2304_1_0_0_1_n_n 768 rfl rfl).symm k) = ix2 n k := funext fun a => Fin.ext (by
    match a with
    | ⟨0, _⟩ => exact lhs_pay1_0 _ _
    | ⟨1, _⟩ => exact (lhs_pay1_1 _ _).trans hk)
  have er : dot_S1024x768_S768x2304_S1024x2304_1_0_0_1_n_n.rhsIdx (ix2 n e) ((contrEquiv1 dot_S1024x768_S768x2304_S1024x2304_1_0_0_1_n_n 768 rfl rfl).symm k) = ix2 k e := funext fun a => Fin.ext (by
    match a with
    | ⟨0, _⟩ => exact (rhs_pay1_0 _ _).trans hk
    | ⟨1, _⟩ => exact rhs_pay1_1 _ _)
  -- the left factor is `x0` with its leading unit axis dropped: `(n, k)` reads `(0, n, k)`
  rw [el, er, shapeCast_self x1]
  rw [truncf_apply, shapeCast_1ab_ab_apply x0 _ n k]

/-! ## The output projection: the same contraction, then the bias row added to every row -/

/-- Left operand of the product, axis 0 (not contracted): the output's row. -/
theorem lhs_pay3_0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
/-- Left operand, axis 1 (the contracted one): the contraction index's one coordinate. -/
theorem lhs_pay3_1 (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
/-- Right operand, axis 0 (the contracted one): the contraction index's one coordinate. -/
theorem rhs_pay3_0 (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
/-- Right operand, axis 1 (not contracted): the output's column. -/
theorem rhs_pay3_1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The output projection and its bias at `(0, n, o)`. -/
theorem pay3_apply (w : Vec Ideal S768x768 .bf16) (b : Vec Ideal S1x768 .f32) (A : Vec Ideal S1024x768 .bf16)
    (n : Fin 1024) (o : Fin 768) :
    k0_pay3 (F := Ideal) w b A (ix3 (0 : Fin 1) n o)
      = (∑ c : Fin 768, A (ix2 n c) * w (ix2 c o)) + b (ix2 (0 : Fin 1) o) := by
  unfold k0_pay3
  -- the added leading unit axis: `(0, n, o)` reads the sum of product and bias at `(n, o)`
  refine (shapeCast_ab_1ab_apply _ _ (0 : Fin 1) n o).trans ?_
  rw [addf_apply]
  refine congrArg₂ (· + ·) ?_ ?_
  · -- the product into the zero accumulator, its one-axis contraction index re-indexed by its coordinate `k`
    refine (Ideal.matmul_constant_zero_apply _ none _ _ _).trans ?_
    rw [← Equiv.sum_comp (contrEquiv1 dot_S1024x768_S768x768_S1024x768_1_0_0_1_n_n 768 rfl rfl).symm]
    refine Finset.sum_congr rfl fun k _ => ?_
    have hk := contrEquiv1_symm_val dot_S1024x768_S768x768_S1024x768_1_0_0_1_n_n 768 rfl rfl k
    have el : dot_S1024x768_S768x768_S1024x768_1_0_0_1_n_n.lhsIdx (ix2 n o) ((contrEquiv1 dot_S1024x768_S768x768_S1024x768_1_0_0_1_n_n 768 rfl rfl).symm k) = ix2 n k := funext fun a => Fin.ext (by
      match a with
      | ⟨0, _⟩ => exact lhs_pay3_0 _ _
      | ⟨1, _⟩ => exact (lhs_pay3_1 _ _).trans hk)
    have er : dot_S1024x768_S768x768_S1024x768_1_0_0_1_n_n.rhsIdx (ix2 n o) ((contrEquiv1 dot_S1024x768_S768x768_S1024x768_1_0_0_1_n_n 768 rfl rfl).symm k) = ix2 k o := funext fun a => Fin.ext (by
      match a with
      | ⟨0, _⟩ => exact (rhs_pay3_0 _ _).trans hk
      | ⟨1, _⟩ => exact rhs_pay3_1 _ _)
    rw [el, er, shapeCast_self w]
  · -- row `n` of the broadcast bias is the bias's one row
    refine (broadcastTo_1b_ab_apply _ _ n o).trans ?_
    rw [shapeCast_self b]

end Cert.KernelIdeal.KP

end
-- ==== Proof.Softmax.lean ====
/-
  One attention head on the extended reals, and the law that joins the two programs.

  Both programs start from the fused projection `Q : rows × 2304`, whose columns are laid out slot-major
  (0 the query, 1 the key, 2 the value), then by head, then by the head's 64 components. For a head `h` and a query
  row `n` both take the logits `(∑ d, Q n (q-col d) · Q j (k-col d)) · 1/8` against every key row `j`, subtract the
  row's maximum, exponentiate, and weigh the value rows by the result, normalised by the sum of the weights. They
  differ in WHERE the normalisation happens: the kernel divides the weighted sum once, `(∑ j, w j · v j) / L`; the
  reference divides each weight first, `∑ j, (w j / L) · v j`. On the extended reals a quotient does not distribute
  over a sum at the infinities, so the two are joined only where the projection's entries are real numbers: then the
  logits are real, their maximum over the 1024 keys is real, every weight is `Real.exp` of a real, hence positive,
  the normaliser `L` is a positive real, division by it is multiplication by `1 / L`, and the law is
  `(∑ j, a j) · c = ∑ j, a j · c` in ℝ.
-/
import Idealize.ShloMosaic.PureOps.Ideal
import Idealize.ShloMosaic.PureOps.Ideal.Laws

noncomputable section

namespace Cert.Attn

open Idealize.ShloMosaic

/-! ## The two literals the head's arithmetic spells -/

/-- The scale `0.125 = 64 ^ (-1/2)`: a dyadic, so its pattern denotes exactly the real `1/8`. -/
theorem ofBits_eighth : Ideal.ofBits .f32 0x3E000000#32 = ((1 / 8 : ℝ) : EReal) := by
  simp [Ideal.ofBits, Ideal.ieee, -EReal.coe_mul]; norm_num

/-- The pattern both maxima start from denotes `-∞`, the bottom of the extended reals. -/
theorem ofBits_negInf : Ideal.ofBits .f32 0xFF800000#32 = (⊥ : EReal) := by
  simp [Ideal.ofBits, Ideal.ieee]

/-! ## Columns -/

/-- The column of the fused projection holding component `d` of head `h` in slot `s`. -/
def col (s : Fin 3) (h : Fin 12) (d : Fin 64) : Fin 2304 :=
  ⟨s.val * 768 + h.val * 64 + d.val, by have := s.isLt; have := h.isLt; have := d.isLt; omega⟩

/-- The column of the 768 concatenated head outputs holding component `d` of head `h`. -/
def hcol (h : Fin 12) (d : Fin 64) : Fin 768 :=
  ⟨h.val * 64 + d.val, by have := h.isLt; have := d.isLt; omega⟩

/-! ## One head -/

section head

variable (Q : Fin 1024 → Fin 2304 → EReal)

/-- The scaled logit of query row `n` against key row `j` in head `h`. -/
def logit (h : Fin 12) (n j : Fin 1024) : EReal :=
  (∑ d : Fin 64, Q n (col 0 h d) * Q j (col 1 h d)) * Ideal.ofBits .f32 0x3E000000#32

/-- The largest logit of query row `n`, taken from `-∞` over all 1024 keys. -/
def rowMax (h : Fin 12) (n : Fin 1024) : EReal :=
  (Finset.univ : Finset (Fin 1024)).fold max (Ideal.ofBits .f32 0xFF800000#32) (fun j => logit Q h n j)

/-- The unnormalised weight of key row `j` for query row `n`. -/
def weight (h : Fin 12) (n j : Fin 1024) : EReal := Ideal.exp (logit Q h n j - rowMax Q h n)

/-- The normaliser: the sum of the row's weights. -/
def denom (h : Fin 12) (n : Fin 1024) : EReal := ∑ j : Fin 1024, weight Q h n j

/-- The head's output with the weighted sum normalised ONCE (the kernel's order). -/
def headOut (h : Fin 12) (n : Fin 1024) (d : Fin 64) : EReal :=
  Ideal.div (∑ j : Fin 1024, weight Q h n j * Q j (col 2 h d)) (denom Q h n)

/-- The head's output with every weight normalised first (the reference's order). -/
def headOutRef (h : Fin 12) (n : Fin 1024) (d : Fin 64) : EReal :=
  ∑ j : Fin 1024, Ideal.div (weight Q h n j) (denom Q h n) * Q j (col 2 h d)

end head

/-! ## Sums and maxima of real numbers stay real -/

/-- The embedding of ℝ commutes with a finite sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum from `-∞` of a nonempty finite family of real numbers is a real number. -/
theorem fold_max_bot_coe {ι : Type} (s : Finset ι) (hs : s.Nonempty) (f : ι → ℝ) :
    ∃ r : ℝ, s.fold max (⊥ : EReal) (fun j => ((f j : ℝ) : EReal)) = (r : EReal) := by
  induction hs using Finset.Nonempty.cons_induction with
  | singleton a => exact ⟨f a, by rw [Finset.fold_singleton]; exact max_bot_right _⟩
  | cons a s ha _ ih =>
    obtain ⟨r, hr⟩ := ih
    exact ⟨max (f a) r, by rw [Finset.fold_cons, hr]; exact (EReal.coe_strictMono.monotone.map_max).symm⟩

/-! ## The law -/

/-- Where the fused projection's entries are real numbers the two orders of normalisation agree. -/
theorem headOut_eq_headOutRef (Q : Fin 1024 → Fin 2304 → EReal) (hQ : ∀ n e, ∃ r : ℝ, Q n e = (r : EReal))
    (h : Fin 12) (n : Fin 1024) (d : Fin 64) : headOut Q h n d = headOutRef Q h n d := by
  choose q hq using hQ
  -- the logits are real
  have hl : ∀ j, logit Q h n j = ((((∑ d : Fin 64, q n (col 0 h d) * q j (col 1 h d)) * (1 / 8) : ℝ)) : EReal) := by
    intro j
    unfold logit
    rw [ofBits_eighth, EReal.coe_mul, coe_sum]
    simp only [hq, EReal.coe_mul]
  -- so is their maximum
  obtain ⟨mx, hmx⟩ : ∃ r : ℝ, rowMax Q h n = (r : EReal) := by
    unfold rowMax
    rw [ofBits_negInf]
    simp only [hl]
    exact fold_max_bot_coe Finset.univ Finset.univ_nonempty _
  -- every weight is the exponential of a real number
  have hw : ∀ j, weight Q h n j
      = ((Real.exp ((∑ d : Fin 64, q n (col 0 h d) * q j (col 1 h d)) * (1 / 8) - mx) : ℝ) : EReal) := by
    intro j
    unfold weight
    rw [hl j, hmx, ← EReal.coe_sub, Ideal.exp_coe]
  -- the normaliser is a positive real
  have hd : denom Q h n
      = ((∑ j : Fin 1024, Real.exp ((∑ d : Fin 64, q n (col 0 h d) * q j (col 1 h d)) * (1 / 8) - mx) : ℝ) : EReal) := by
    unfold denom
    rw [coe_sum]
    exact Finset.sum_congr rfl fun j _ => hw j
  have hpos : (∑ j : Fin 1024, Real.exp ((∑ d : Fin 64, q n (col 0 h d) * q j (col 1 h d)) * (1 / 8) - mx)) ≠ 0 :=
    (Finset.sum_pos (fun j _ => Real.exp_pos _) Finset.univ_nonempty).ne'
  -- division by it is multiplication by its reciprocal, which distributes over the sum in ℝ
  unfold headOut headOutRef
  rw [hd]
  simp only [Ideal.div_coe hpos, hw, hq, ← EReal.coe_mul, ← coe_sum]
  rw [EReal.coe_eq_coe_iff, Finset.sum_mul]
  exact Finset.sum_congr rfl fun j _ => by ring

end Cert.Attn

end
-- ==== Proof.KernelPayHead.lean ====
/-
  One head of the body, read at an index on the extended reals: trip `k`'s stored block is the head's attention output
  in the order the kernel normalises it.

  `headBlock Q k` is `k0_pay2` of three 1024 × 64 column blocks of the fused projection `Q`: the queries at columns
  `64·k …`, the keys at `768 + 64·k …`, the values at `1536 + 64·k …` — the specification's columns `col 0 k d`,
  `col 1 k d`, `col 2 k d`. `k0_pay2` takes the logits `(∑ d, q[n,d] · k[j,d]) · 1/8` (a matrix product contracting both
  operands' second axis, into a zero accumulator, times the splat of the scale), the row maximum from `-∞` kept as a
  column and broadcast back, the exponential of the difference, the row sum of those weights from `0`, the product of the
  weights with the values, and divides that by the row sum broadcast along the 64 components; the changes of float format
  between these are the identity. At `(n, d)` that is `Cert.Attn.headOut` of `Q`.
-/
import proofs.«407775_j4569845203330_3_alg».proof.Proof.KernelScratch
import proofs.«407775_j4569845203330_3_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KP

open Cert.KernelIdeal Cert.KernelIdeal.Gen Idealize.ShloMosaic Idealize.ShloMosaic.ValueIdx

/-- A trip of the loop as a head of the specification. -/
def headIx (k : Fin k0_t1_loop.trips) : Fin 12 := ⟨k.val, lt_of_lt_of_le k.isLt (le_of_eq Cert.KernelIdeal.KV.trips_eq)⟩

/-! ## The two matrix products at an index

The logits' product contracts axis 1 of BOTH operands (queries against keys), the weighted values' product axis 1 of the
weights against axis 0 of the values. Each operand index at output index `i` and contraction index `q`, axis by axis. -/

theorem lhs_qk_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_qk_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_qk_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_qk_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The logits' product at `(n, j)`: query row `n` against key row `j`, summed over the 64 components. -/
theorem qk_apply (q k : FVec Ideal S1024x64 .bf16) (n j : Fin 1024) :
    matmul (F := Ideal) dot_S1024x64_S1024x64_S1024x1024_1_1_0_0_n_n none q k (constant S1024x1024 .f32 0x00000000#32) (ix2 n j)
      = ∑ d : Fin 64, q (ix2 n d) * k (ix2 j d) := by
  simp only [matmul]
  rw [Ideal.matmul_constant_zero_apply, ← Equiv.sum_comp (contrEquiv1 dot_S1024x64_S1024x64_S1024x1024_1_1_0_0_n_n 64 rfl rfl).symm]
  refine Finset.sum_congr rfl fun d _ => ?_
  have hk := contrEquiv1_symm_val dot_S1024x64_S1024x64_S1024x1024_1_1_0_0_n_n 64 rfl rfl d
  have el : dot_S1024x64_S1024x64_S1024x1024_1_1_0_0_n_n.lhsIdx (ix2 n j) ((contrEquiv1 dot_S1024x64_S1024x64_S1024x1024_1_1_0_0_n_n 64 rfl rfl).symm d) = ix2 n d := funext fun a => Fin.ext (by
    match a with
    | ⟨0, _⟩ => exact lhs_qk_0 _ _
    | ⟨1, _⟩ => exact (lhs_qk_1 _ _).trans hk)
  have er : dot_S1024x64_S1024x64_S1024x1024_1_1_0_0_n_n.rhsIdx (ix2 n j) ((contrEquiv1 dot_S1024x64_S1024x64_S1024x1024_1_1_0_0_n_n 64 rfl rfl).symm d) = ix2 j d := funext fun a => Fin.ext (by
    match a with
    | ⟨0, _⟩ => exact rhs_qk_0 _ _
    | ⟨1, _⟩ => exact (rhs_qk_1 _ _).trans hk)
  rw [el, er]

theorem lhs_pv_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pv_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_pv_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_pv_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The weighted values' product at `(n, d)`: row `n` of the weights against column `d` of the values, over the 1024 keys. -/
theorem pv_apply (w : FVec Ideal S1024x1024 .bf16) (v : FVec Ideal S1024x64 .bf16) (n : Fin 1024) (d : Fin 64) :
    matmul (F := Ideal) dot_S1024x1024_S1024x64_S1024x64_1_0_0_1_n_n none w v (constant S1024x64 .f32 0x00000000#32) (ix2 n d)
      = ∑ j : Fin 1024, w (ix2 n j) * v (ix2 j d) := by
  simp only [matmul]
  rw [Ideal.matmul_constant_zero_apply, ← Equiv.sum_comp (contrEquiv1 dot_S1024x1024_S1024x64_S1024x64_1_0_0_1_n_n 1024 rfl rfl).symm]
  refine Finset.sum_congr rfl fun j _ => ?_
  have hk := contrEquiv1_symm_val dot_S1024x1024_S1024x64_S1024x64_1_0_0_1_n_n 1024 rfl rfl j
  have el : dot_S1024x1024_S1024x64_S1024x64_1_0_0_1_n_n.lhsIdx (ix2 n d) ((contrEquiv1 dot_S1024x1024_S1024x64_S1024x64_1_0_0_1_n_n 1024 rfl rfl).symm j) = ix2 n j := funext fun a => Fin.ext (by
    match a with
    | ⟨0, _⟩ => exact lhs_pv_0 _ _
    | ⟨1, _⟩ => exact (lhs_pv_1 _ _).trans hk)
  have er : dot_S1024x1024_S1024x64_S1024x64_1_0_0_1_n_n.rhsIdx (ix2 n d) ((contrEquiv1 dot_S1024x1024_S1024x64_S1024x64_1_0_0_1_n_n 1024 rfl rfl).symm j) = ix2 j d := funext fun a => Fin.ext (by
    match a with
    | ⟨0, _⟩ => exact (rhs_pv_0 _ _).trans hk
    | ⟨1, _⟩ => exact rhs_pv_1 _ _)
  rw [el, er]

/-! ## A row statistic kept as a column and broadcast back -/

/-- A length-`a` vector cast to an `[a, 1]` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column at row `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The two row reductions -/

/-- The row sum from `0` at row `n`: the sum over the 1024 columns. -/
theorem rowSum_apply (x : FVec Ideal S1024x1024 .f32) (n : Fin 1024) :
    multiReduction (F := Ideal) .add [1] S1024 x 0x00000000#32 reduces_S1024x1024_S1024 (.inl rfl) rfl (ix1 n)
      = ∑ j : Fin 1024, x (ix2 n j) := by
  refine (Ideal.multiReduction_add_single x _ reduces_S1024x1024_S1024 (.inl rfl) rfl (ix1 n)).trans ?_
  refine Finset.sum_congr rfl fun j _ => ?_
  exact congrArg x (funext fun a => Fin.ext (by match a with | ⟨0, _⟩ => rfl | ⟨1, _⟩ => rfl))

/-- The row maximum from `-∞` at row `n`: the fold of `max` over the 1024 columns. -/
theorem rowMax_apply (x : FVec Ideal S1024x1024 .f32) (n : Fin 1024) :
    multiReduction (F := Ideal) .maximumf [1] S1024 x 0xFF800000#32 reduces_S1024x1024_S1024 (.inl rfl) rfl (ix1 n)
      = (Finset.univ : Finset (Fin 1024)).fold max (Ideal.ofBits .f32 0xFF800000#32) (fun j => x (ix2 n j)) := by
  refine (Ideal.multiReduction_maximumf_single x _ reduces_S1024x1024_S1024 (.inl rfl) rfl (ix1 n)).trans ?_
  refine congrArg (Finset.fold max _ · _) (funext fun j => ?_)
  exact congrArg x (funext fun a => Fin.ext (by match a with | ⟨0, _⟩ => rfl | ⟨1, _⟩ => rfl))

/-! ## The payload's stages over three blocks `q`, `k`, `v` -/

/-- The scaled logit of query row `n` against key row `j`. -/
def lg (q k : FVec Ideal S1024x64 .bf16) (n j : Fin 1024) : EReal :=
  (∑ d : Fin 64, q (ix2 n d) * k (ix2 j d)) * Ideal.ofBits .f32 0x3E000000#32

/-- The row's largest scaled logit, from `-∞`. -/
def rmx (q k : FVec Ideal S1024x64 .bf16) (n : Fin 1024) : EReal :=
  (Finset.univ : Finset (Fin 1024)).fold max (Ideal.ofBits .f32 0xFF800000#32) (fun j => lg q k n j)

/-- The unnormalised weight of key row `j` for query row `n`. -/
def wt (q k : FVec Ideal S1024x64 .bf16) (n j : Fin 1024) : EReal := Ideal.exp (lg q k n j - rmx q k n)

/-- The scaled logits as the vector the payload computes: the product into the zero splat times the splat of the scale. -/
def sc (q k : FVec Ideal S1024x64 .bf16) : FVec Ideal S1024x1024 .f32 :=
  mulf (matmul (F := Ideal) dot_S1024x64_S1024x64_S1024x1024_1_1_0_0_n_n none q k (constant S1024x1024 .f32 0x00000000#32))
    (broadcast S1024x1024 (Scalar.ofBits (F := Ideal) .f32 0x3E000000#32))

theorem sc_apply (q k : FVec Ideal S1024x64 .bf16) (n j : Fin 1024) : sc q k (ix2 n j) = lg q k n j := by
  unfold sc lg
  rw [mulf_apply, qk_apply, broadcast_apply]
  rfl

/-- The weights as the vector the payload computes: the exponential of the logits less the row maximum, the maximum kept
    as a column and broadcast along the row. -/
def ew (q k : FVec Ideal S1024x64 .bf16) : FVec Ideal S1024x1024 .f32 :=
  exp (subf (sc q k) (broadcastTo S1024x1024 (shapeCast S1024x1
    (multiReduction (F := Ideal) .maximumf [1] S1024 (sc q k) 0xFF800000#32 reduces_S1024x1024_S1024 (.inl rfl) rfl)
      shapeCasts_S1024_S1024x1) broadcasts_S1024x1_S1024x1024))

theorem ew_apply (q k : FVec Ideal S1024x64 .bf16) (n j : Fin 1024) : ew q k (ix2 n j) = wt q k n j := by
  unfold ew wt rmx
  show Ideal.exp (sc q k (ix2 n j) - broadcastTo S1024x1024 _ broadcasts_S1024x1_S1024x1024 (ix2 n j)) = _
  rw [broadcastTo_a1_ab_apply, shapeCast_a_a1_apply, rowMax_apply]
  simp only [sc_apply]

/-- The payload is the quotient of the weighted values by the row sum of the weights, through format changes and a cast
    to its own shape. -/
theorem pay2_eq (q k v : FVec Ideal S1024x64 .bf16) :
    k0_pay2 (F := Ideal) q k v
      = shapeCast S1024x64 (truncf .bf16 (divf
          (matmul (F := Ideal) dot_S1024x1024_S1024x64_S1024x64_1_0_0_1_n_n none (truncf .bf16 (ew q k) bitsLt_bf16_f32) v (constant S1024x64 .f32 0x00000000#32))
          (broadcastTo S1024x64 (shapeCast S1024x1
            (multiReduction (F := Ideal) .add [1] S1024 (ew q k) 0x00000000#32 reduces_S1024x1024_S1024 (.inl rfl) rfl)
              shapeCasts_S1024_S1024x1) broadcasts_S1024x1_S1024x64)) bitsLt_bf16_f32) shapeCasts_S1024x64_S1024x64 := rfl

/-- The payload at `(n, d)`: the weighted sum of the values' component `d` over the keys, divided once by the sum of the weights. -/
theorem pay2_apply (q k v : FVec Ideal S1024x64 .bf16) (n : Fin 1024) (d : Fin 64) :
    k0_pay2 (F := Ideal) q k v (ix2 n d)
      = Ideal.div (∑ j : Fin 1024, wt q k n j * v (ix2 j d)) (∑ j : Fin 1024, wt q k n j) := by
  rw [pay2_eq, shapeCast_self]
  show Ideal.div (matmul (F := Ideal) dot_S1024x1024_S1024x64_S1024x64_1_0_0_1_n_n none (truncf .bf16 (ew q k) bitsLt_bf16_f32) v (constant S1024x64 .f32 0x00000000#32) (ix2 n d))
    (broadcastTo S1024x64 _ broadcasts_S1024x1_S1024x64 (ix2 n d)) = _
  rw [pv_apply, broadcastTo_a1_ab_apply, shapeCast_a_a1_apply, rowSum_apply]
  simp only [truncf_apply, ew_apply]

/-! ## The three loaded blocks are the head's columns of `Q` -/

/-- The queries' block of trip `k` at `(r, d)`: column `64·k + d`, the head's slot-0 column of component `d`. -/
theorem ldQ_apply (Q : Vec Ideal S1024x2304 .bf16) (k : Fin k0_t1_loop.trips) (r : Fin 1024) (d : Fin 64) :
    (View.ld Q (Rect.unit (s := S1024x2304) (k0_off1 k) S1024x64.size (k0_off1_inb k)) : Vec Ideal S1024x64 .bf16) (ix2 r d)
      = Q (ix2 r (Cert.Attn.col 0 (headIx k) d)) := by
  have e0 : k0_off1 k 0 = 0 := by rw [k0_off1_eq k]; rfl
  have e1 : k0_off1 k 1 = 64 * k.val := by rw [k0_off1_eq k]; rfl
  exact congrArg Q (funext fun a => Fin.ext (by
    match a with
    | ⟨0, _⟩ => show k0_off1 k 0 + 1 * r.val = r.val; omega
    | ⟨1, _⟩ => show k0_off1 k 1 + 1 * d.val = 0 * 768 + k.val * 64 + d.val; omega))

/-- The keys' block of trip `k` at `(r, d)`: column `768 + 64·k + d`, the head's slot-1 column of component `d`. -/
theorem ldK_apply (Q : Vec Ideal S1024x2304 .bf16) (k : Fin k0_t1_loop.trips) (r : Fin 1024) (d : Fin 64) :
    (View.ld Q (Rect.unit (s := S1024x2304) (k0_off2 k 768#32) S1024x64.size (k0_off2_inb k 0)) : Vec Ideal S1024x64 .bf16) (ix2 r d)
      = Q (ix2 r (Cert.Attn.col 1 (headIx k) d)) := by
  have e0 : k0_off2 k 768#32 0 = 0 := by rw [show (768#32 : BitVec 32) = BitVec.ofNat 32 (768 + 768 * (⟨0, by decide⟩ : Fin 2).val) from rfl, k0_off2_eq k ⟨0, by decide⟩]; rfl
  have e1 : k0_off2 k 768#32 1 = 768 * 0 + 64 * k.val + 768 := by rw [show (768#32 : BitVec 32) = BitVec.ofNat 32 (768 + 768 * (⟨0, by decide⟩ : Fin 2).val) from rfl, k0_off2_eq k ⟨0, by decide⟩]; rfl
  exact congrArg Q (funext fun a => Fin.ext (by
    match a with
    | ⟨0, _⟩ => show k0_off2 k 768#32 0 + 1 * r.val = r.val; omega
    | ⟨1, _⟩ => show k0_off2 k 768#32 1 + 1 * d.val = 1 * 768 + k.val * 64 + d.val; omega))

/-- The values' block of trip `k` at `(r, d)`: column `1536 + 64·k + d`, the head's slot-2 column of component `d`. -/
theorem ldV_apply (Q : Vec Ideal S1024x2304 .bf16) (k : Fin k0_t1_loop.trips) (r : Fin 1024) (d : Fin 64) :
    (View.ld Q (Rect.unit (s := S1024x2304) (k0_off2 k 1536#32) S1024x64.size (k0_off2_inb k 1)) : Vec Ideal S1024x64 .bf16) (ix2 r d)
      = Q (ix2 r (Cert.Attn.col 2 (headIx k) d)) := by
  have e0 : k0_off2 k 1536#32 0 = 0 := by rw [show (1536#32 : BitVec 32) = BitVec.ofNat 32 (768 + 768 * (⟨1, by decide⟩ : Fin 2).val) from rfl, k0_off2_eq k ⟨1, by decide⟩]; rfl
  have e1 : k0_off2 k 1536#32 1 = 768 * 1 + 64 * k.val + 768 := by rw [show (1536#32 : BitVec 32) = BitVec.ofNat 32 (768 + 768 * (⟨1, by decide⟩ : Fin 2).val) from rfl, k0_off2_eq k ⟨1, by decide⟩]; rfl
  exact congrArg Q (funext fun a => Fin.ext (by
    match a with
    | ⟨0, _⟩ => show k0_off2 k 1536#32 0 + 1 * r.val = r.val; omega
    | ⟨1, _⟩ => show k0_off2 k 1536#32 1 + 1 * d.val = 2 * 768 + k.val * 64 + d.val; omega))

/-- Three blocks that read head `h`'s three column groups of `Q'` give that head's output: the stages above are the
    specification's logit, row maximum, weight and normaliser, term for term. -/
theorem headOut_of_blocks (Q' : Fin 1024 → Fin 2304 → EReal) (h : Fin 12) (q k v : FVec Ideal S1024x64 .bf16)
    (hq : ∀ r d, q (ix2 r d) = Q' r (Cert.Attn.col 0 h d)) (hk : ∀ r d, k (ix2 r d) = Q' r (Cert.Attn.col 1 h d))
    (hv : ∀ r d, v (ix2 r d) = Q' r (Cert.Attn.col 2 h d)) (n : Fin 1024) (d : Fin 64) :
    Ideal.div (∑ j : Fin 1024, wt q k n j * v (ix2 j d)) (∑ j : Fin 1024, wt q k n j) = Cert.Attn.headOut Q' h n d := by
  unfold Cert.Attn.headOut Cert.Attn.denom Cert.Attn.weight Cert.Attn.rowMax Cert.Attn.logit wt rmx lg
  simp only [hq, hk, hv]

/-- Trip `k`'s stored block at `(n, d)` is head `k`'s output there, the weighted sum normalised once. -/
theorem headBlock_apply (Q : Vec Ideal S1024x2304 .bf16) (k : Fin k0_t1_loop.trips) (n : Fin 1024) (d : Fin 64) :
    Cert.KernelIdeal.KV.headBlock (F := Ideal) Q k (ix2 n d)
      = Cert.Attn.headOut (fun n e => Q (ix2 n e)) (headIx k) n d := by
  unfold Cert.KernelIdeal.KV.headBlock
  exact (pay2_apply _ _ _ n d).trans (headOut_of_blocks (fun n e => Q (ix2 n e)) (headIx k) _ _ _
    (ldQ_apply Q k) (ldK_apply Q k) (ldV_apply Q k) n d)

end Cert.KernelIdeal.KP

end
-- ==== Proof.Spec.lean ====
/-
  The whole result as ONE function of the four argument arrays, index by index, on the extended reals.

  For batch row `b`: the fused projection `Q n e = ∑ c, x[b,n,c] · w_qkv[e,c]` (rows × 2304); for each of the 12
  heads the attention of Proof/Softmax.lean over `Q`'s query, key and value columns, its 64 components written at
  columns `h·64 … h·64+63` of a rows × 768 array `A`; and the output projection
  `out[b,n,o] = (∑ c, A n c · w_proj[o,c]) + b_proj[o]`. A column `c` of `A` belongs to head `c / 64`, component
  `c % 64`. Stated twice, with the head normalised in the kernel's order (`attentionAt`) and in the reference's
  (`attentionRefAt`); where `x` and `w_qkv` hold real numbers the fused projection is real and the two agree
  (`attentionAt_eq_attentionRefAt`, by the law of Proof/Softmax.lean head by head).
-/
import Idealize.ShloMosaic.Lib.ValueIdx
import proofs.«407775_j4569845203330_3_alg».proof.Proof.Softmax

noncomputable section

namespace Cert.Attn

open Idealize.ShloMosaic Idealize.ShloMosaic.ValueIdx

/-- The head a column of the concatenated outputs belongs to. -/
def headOf (c : Fin 768) : Fin 12 := ⟨c.val / 64, by have := c.isLt; omega⟩

/-- The component of that head the column holds. -/
def compOf (c : Fin 768) : Fin 64 := ⟨c.val % 64, Nat.mod_lt _ (by norm_num)⟩

/-- A column is the one its head and component name. -/
theorem hcol_headOf_compOf (c : Fin 768) : hcol (headOf c) (compOf c) = c :=
  Fin.ext (by show c.val / 64 * 64 + c.val % 64 = c.val; omega)

theorem headOf_hcol (h : Fin 12) (d : Fin 64) : headOf (hcol h d) = h :=
  Fin.ext (by show (h.val * 64 + d.val) / 64 = h.val; have := d.isLt; omega)

theorem compOf_hcol (h : Fin 12) (d : Fin 64) : compOf (hcol h d) = d :=
  Fin.ext (by show (h.val * 64 + d.val) % 64 = d.val; have := d.isLt; omega)

/-- The fused projection of one batch row. -/
def fused (X : Fin 1024 → Fin 768 → EReal) (Wq : Fin 2304 → Fin 768 → EReal) (n : Fin 1024) (e : Fin 2304) : EReal :=
  ∑ c : Fin 768, X n c * Wq e c

/-- The 12 heads' outputs side by side, each normalised once (the kernel's order). -/
def heads (Q : Fin 1024 → Fin 2304 → EReal) (n : Fin 1024) (c : Fin 768) : EReal :=
  headOut Q (headOf c) n (compOf c)

/-- The same with every weight normalised first (the reference's order). -/
def headsRef (Q : Fin 1024 → Fin 2304 → EReal) (n : Fin 1024) (c : Fin 768) : EReal :=
  headOutRef Q (headOf c) n (compOf c)

/-- The output projection and its bias. -/
def project (A : Fin 1024 → Fin 768 → EReal) (Wp : Fin 768 → Fin 768 → EReal) (bias : Fin 768 → EReal)
    (n : Fin 1024) (o : Fin 768) : EReal :=
  (∑ c : Fin 768, A n c * Wp o c) + bias o

section arrays

variable (x : (⟨3, ![16, 1024, 768]⟩ : Shape).Idx → EReal) (wq : (⟨2, ![2304, 768]⟩ : Shape).Idx → EReal)
  (wp : (⟨2, ![768, 768]⟩ : Shape).Idx → EReal) (bp : (⟨1, ![768]⟩ : Shape).Idx → EReal)

/-- Batch row `b` of the input, and the two weight matrices and the bias by coordinates. -/
def xRow (b : Fin 16) (n : Fin 1024) (c : Fin 768) : EReal := x (ix3 b n c)
def wqAt (e : Fin 2304) (c : Fin 768) : EReal := wq (ix2 e c)
def wpAt (o : Fin 768) (c : Fin 768) : EReal := wp (ix2 o c)
def bpAt (o : Fin 768) : EReal := bp (ix1 o)

/-- The result at `(b, n, o)`, heads normalised once. -/
def attentionAt (b : Fin 16) (n : Fin 1024) (o : Fin 768) : EReal :=
  project (heads (fused (xRow x b) (wqAt wq))) (wpAt wp) (bpAt bp) n o

/-- The result at `(b, n, o)`, every weight normalised first. -/
def attentionRefAt (b : Fin 16) (n : Fin 1024) (o : Fin 768) : EReal :=
  project (headsRef (fused (xRow x b) (wqAt wq))) (wpAt wp) (bpAt bp) n o

/-- The result array: the function both runs are stated to end at. -/
def attention : (⟨3, ![16, 1024, 768]⟩ : Shape).Idx → EReal :=
  fun i => attentionAt x wq wp bp (i 0) (i 1) (i 2)

/-- The fused projection of real inputs is real. -/
theorem fused_real (hx : ∀ i, ∃ r : ℝ, x i = (r : EReal)) (hwq : ∀ i, ∃ r : ℝ, wq i = (r : EReal)) (b : Fin 16)
    (n : Fin 1024) (e : Fin 2304) : ∃ r : ℝ, fused (xRow x b) (wqAt wq) n e = (r : EReal) := by
  choose xr hxr using hx
  choose wr hwr using hwq
  refine ⟨∑ c : Fin 768, xr (ix3 b n c) * wr (ix2 e c), ?_⟩
  unfold fused xRow wqAt
  rw [coe_sum]
  exact Finset.sum_congr rfl fun c _ => by rw [hxr, hwr, EReal.coe_mul]

/-- Where `x` and `w_qkv` hold real numbers the two orders of normalisation give one result. -/
theorem attentionAt_eq_attentionRefAt (hx : ∀ i, ∃ r : ℝ, x i = (r : EReal)) (hwq : ∀ i, ∃ r : ℝ, wq i = (r : EReal))
    (b : Fin 16) (n : Fin 1024) (o : Fin 768) : attentionAt x wq wp bp b n o = attentionRefAt x wq wp bp b n o := by
  unfold attentionAt attentionRefAt project
  refine congrArg (· + bpAt bp o) (Finset.sum_congr rfl fun c _ => ?_)
  unfold heads headsRef
  rw [headOut_eq_headOutRef _ (fun n e => fused_real x wq hx hwq b n e)]

end arrays

end Cert.Attn

end
-- ==== Proof.KernelBlock.lean ====
/-
  The body's output block is the specification of one batch row.

  With `x0` the row's block of the input, `x1` and `x2` the two (transposed) weight matrices and `x3` the bias row, the
  block the body leaves at `(0, n, o)` is `(∑ c, A n c · x2[c, o]) + x3[0, o]` where `A n c` is head `c / 64`'s output at
  component `c % 64` over the fused projection `Q n e = ∑ c, x0[0, n, c] · x1[c, e]`: the specification's
  `project (heads (fused X Wq)) Wp bias` with `X n c = x0[0, n, c]`, `Wq e c = x1[c, e]`, `Wp o c = x2[c, o]`, `bias o = x3[0, o]`.
-/
import proofs.«407775_j4569845203330_3_alg».proof.Proof.KernelScratch
import proofs.«407775_j4569845203330_3_alg».proof.Proof.KernelPayProj
import proofs.«407775_j4569845203330_3_alg».proof.Proof.KernelPayHead
import proofs.«407775_j4569845203330_3_alg».proof.Proof.Spec

set_option maxRecDepth 16384

noncomputable section

namespace Cert.KernelIdeal.KB

open Cert.KernelIdeal Cert.KernelIdeal.Gen Cert.KernelIdeal.GenP Idealize.ShloMosaic Idealize.ShloMosaic.ValueIdx

/-- Column `c` of row `n` belongs to head `c / 64` … -/
theorem headIx_headOfCol (n : Fin 1024) (cc : Fin 768) :
    KP.headIx (KV.headOfCol (ix2 n cc)) = Cert.Attn.headOf cc := Fin.ext rfl

/-- … at in-head column `c % 64`. -/
theorem inHead_ix2 (n : Fin 1024) (cc : Fin 768) : KV.inHead (ix2 n cc) = ix2 n (Cert.Attn.compOf cc) := by
  funext a; match a with | ⟨0, _⟩ => rfl | ⟨1, _⟩ => rfl

/-- The fused projection the body stores is the specification's. -/
theorem pay1_eq_fused (x0 : Vec Ideal S1x1024x768 .f32) (x1 : Vec Ideal S768x2304 .bf16) :
    (fun (n : Fin 1024) (e : Fin 2304) => k0_pay1 (F := Ideal) x0 x1 (ix2 n e))
      = Cert.Attn.fused (fun n cc => x0 (ix3 (0 : Fin 1) n cc)) (fun e cc => x1 (ix2 cc e)) := by
  funext n e
  rw [KP.pay1_apply]
  rfl

/-- THE OUTPUT BLOCK at `(0, n, o)`. -/
theorem out_block_apply (c : Dev nD) (i : grid0.Coords) (arg1 : Memref sig .tc .vmem S1x1024x768 .f32) (harg1 : arg1.IsWhole) (arg2 : Memref sig .tc .vmem S768x2304 .bf16) (harg2 : arg2.IsWhole) (arg3 : Memref sig .tc .vmem S768x768 .bf16) (harg3 : arg3.IsWhole) (arg4 : Memref sig .tc .vmem S1x768 .f32) (harg4 : arg4.IsWhole) (arg5 : Memref sig .tc .vmem S1x1024x768 .f32) (harg5 : arg5.IsWhole) (arg6 : Memref sig .tc .vmem S1024x2304 .bf16) (harg6 : arg6.IsWhole) (arg7 : Memref sig .tc .vmem S1024x768 .bf16) (harg7 : arg7.IsWhole)
    (x0 : Vec Ideal S1x1024x768 .f32) (x1 : Vec Ideal S768x2304 .bf16) (x2 : Vec Ideal S768x768 .bf16) (x3 : Vec Ideal S1x768 .f32)
    (n : Fin 1024) (o : Fin 768) :
    out0_A_4 (F := Ideal) c i arg1 harg1 arg2 harg2 arg3 harg3 arg4 harg4 arg5 harg5 arg6 harg6 arg7 harg7 x0 x1 x2 x3 (ix3 (0 : Fin 1) n o)
      = Cert.Attn.project
          (Cert.Attn.heads (Cert.Attn.fused (fun n cc => x0 (ix3 (0 : Fin 1) n cc)) (fun e cc => x1 (ix2 cc e))))
          (fun o cc => x2 (ix2 cc o)) (fun o => x3 (ix2 (0 : Fin 1) o)) n o := by
  rw [KV.out0_A_4_eq, KP.pay3_apply]
  unfold Cert.Attn.project
  refine congrArg (· + x3 (ix2 (0 : Fin 1) o)) (Finset.sum_congr rfl fun cc _ => ?_)
  refine congrArg (· * x2 (ix2 cc o)) ?_
  show KV.headBlock (F := Ideal) (k0_pay1 x0 x1) (KV.headOfCol (ix2 n cc)) (KV.inHead (ix2 n cc)) = _
  rw [inHead_ix2, KP.headBlock_apply, headIx_headOfCol, pay1_eq_fused]
  rfl

end Cert.KernelIdeal.KB

end
-- ==== Proof.KernelInputs.lean ====
/-
  The body's four input blocks at a grid point, read back to the argument arrays.

  Grid point `t` is batch row `t`. Window 0 stages block `(t, 0, 0)` of the input `x`, a [1, 1024, 768] slab: its entry
  `(0, n, c)` is `x[t, n, c]`. Windows 1, 2 and 3 stage, whole and at every point, three arrays the host computes before the
  region: the transpose of `w_qkv` (so entry `(c, e)` is `w_qkv[e, c]`), the transpose of `w_proj` (entry `(c, o)` is
  `w_proj[o, c]`) — the changes of float format after each the identity — and the bias reshaped to one row (entry `(0, o)` is
  `b_proj[o]`).
-/
import proofs.«407775_j4569845203330_3_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KI

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A grid point as a batch row. -/
def rowOf (t : Fin cfg0.N) : Fin 16 := Fin.cast N_0 t

/-- The four input blocks at point `t`, each at its literal type. -/
abbrev xBlk (c : Dev nD) (t : Fin cfg0.N) : Vec Ideal S1x1024x768 .f32 := iblk m c 0 t
abbrev wqBlk (c : Dev nD) (t : Fin cfg0.N) : Vec Ideal S768x2304 .bf16 := iblk m c 1 t
abbrev wpBlk (c : Dev nD) (t : Fin cfg0.N) : Vec Ideal S768x768 .bf16 := iblk m c 2 t
abbrev bBlk (c : Dev nD) (t : Fin cfg0.N) : Vec Ideal S1x768 .f32 := iblk m c 3 t

/-- The windows' block indices, decided once over the grid: window 0's block moves with the point along the batch
    axis and sits at 0 on the other two; windows 1, 2 and 3 are whole arrays, block index 0 on both axes. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Window 0's block at point `t` is batch row `t` of the input. -/
theorem xBlk_apply (c : Dev nD) (t : Fin cfg0.N) (n : Fin 1024) (cc : Fin 768) :
    xBlk m c t (ix3 (0 : Fin 1) n cc) = m ((c : Thread nD τ).loc main_arg0) (ix3 (rowOf t) n cc) := by
  obtain ⟨e0, e1, e2, -⟩ := idx_facts t
  show V m c main_arg0 (((cfg0.win 0).blk t).view.emb (ix3 (0 : Fin 1) n cc)) = _
  rw [V_main_arg0 m c]
  refine congrArg _ ?_
  -- a block's coordinate on an axis is (block index) × (block extent) + the coordinate inside the block
  funext a; apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 768 + 1 * cc.val = cc.val; omega

/-- The array window 1 stages, as the region finds it: the transpose of the fused weight, then the change of float
    format (the identity on the extended reals). -/
theorem V_main_v1 (c : Dev nD) :
    @Eq (S768x2304.Idx → EReal) (V m c main_v1)
      (truncf (F := Ideal) .bf16 (transpose S768x2304 [1, 0] (m ((c : Thread nD τ).loc main_arg1)) transposes_S2304x768_S768x2304_1_0) bitsLt_bf16_f32) := by
  dsimp only [Gen.V, Gen.hostOps0]; after_results

/-- Window 1's block is the transposed fused weight. -/
theorem wqBlk_apply (c : Dev nD) (t : Fin cfg0.N) (cc : Fin 768) (e : Fin 2304) :
    wqBlk m c t (ix2 cc e) = m ((c : Thread nD τ).loc main_arg1) (ix2 e cc) := by
  obtain ⟨-, -, -, e0, e1, -⟩ := idx_facts t
  show V m c main_v1 (((cfg0.win 1).blk t).view.emb (ix2 cc e)) = _
  -- the window is the whole array: block index 0 on both axes, so the block's coordinates are the array's
  have hi : ((cfg0.win 1).blk t).view.emb (ix2 cc e) = (ix2 cc e : S768x2304.Idx) := by
    funext a; apply Fin.ext
    match a with
    | ⟨0, _⟩ => show win0_1.index t (0 : Fin 2) * 768 + 1 * cc.val = cc.val; omega
    | ⟨1, _⟩ => show win0_1.index t (1 : Fin 2) * 2304 + 1 * e.val = e.val; omega
  refine (congrArg (V m c main_v1 : S768x2304.Idx → EReal) hi).trans ?_
  rw [V_main_v1 m c, truncf_apply]
  -- entry (cc, e) of the transpose is entry (e, cc) of the operand
  exact transpose_apply [1, 0] _ transposes_S2304x768_S768x2304_1_0 (ix2 cc e) (ix2 e cc) (fun b => match b with
    | ⟨0, _⟩ => rfl
    | ⟨1, _⟩ => rfl)

/-- The array window 2 stages, as the region finds it: the transpose of the output weight, then the change of float
    format (the identity on the extended reals). -/
theorem V_main_v3 (c : Dev nD) :
    @Eq (S768x768.Idx → EReal) (V m c main_v3)
      (truncf (F := Ideal) .bf16 (transpose S768x768 [1, 0] (m ((c : Thread nD τ).loc main_arg2)) transposes_S768x768_S768x768_1_0) bitsLt_bf16_f32) := by
  dsimp only [Gen.V, Gen.hostOps0]; after_results

/-- Window 2's block is the transposed output weight. -/
theorem wpBlk_apply (c : Dev nD) (t : Fin cfg0.N) (cc : Fin 768) (o : Fin 768) :
    wpBlk m c t (ix2 cc o) = m ((c : Thread nD τ).loc main_arg2) (ix2 o cc) := by
  obtain ⟨-, -, -, -, -, e0, e1, -⟩ := idx_facts t
  show V m c main_v3 (((cfg0.win 2).blk t).view.emb (ix2 cc o)) = _
  -- the window is the whole array: block index 0 on both axes, so the block's coordinates are the array's
  have hi : ((cfg0.win 2).blk t).view.emb (ix2 cc o) = (ix2 cc o : S768x768.Idx) := by
    funext a; apply Fin.ext
    match a with
    | ⟨0, _⟩ => show win0_2.index t (0 : Fin 2) * 768 + 1 * cc.val = cc.val; omega
    | ⟨1, _⟩ => show win0_2.index t (1 : Fin 2) * 768 + 1 * o.val = o.val; omega
  refine (congrArg (V m c main_v3 : S768x768.Idx → EReal) hi).trans ?_
  rw [V_main_v3 m c, truncf_apply]
  -- entry (cc, o) of the transpose is entry (o, cc) of the operand
  exact transpose_apply [1, 0] _ transposes_S768x768_S768x768_1_0 (ix2 cc o) (ix2 o cc) (fun b => match b with
    | ⟨0, _⟩ => rfl
    | ⟨1, _⟩ => rfl)

/-- The array window 3 stages, as the region finds it: the bias reshaped from [768] to one row [1, 768]. -/
theorem V_main_v4 (c : Dev nD) :
    @Eq (S1x768.Idx → EReal) (V m c main_v4)
      (shapeCast S1x768 (m ((c : Thread nD τ).loc main_arg3)) shapeCasts_S768_S1x768) := by
  dsimp only [Gen.V, Gen.hostOps0]; after_results; rfl

/-- Window 3's block is the bias as one row. -/
theorem bBlk_apply (c : Dev nD) (t : Fin cfg0.N) (o : Fin 768) :
    bBlk m c t (ix2 (0 : Fin 1) o) = m ((c : Thread nD τ).loc main_arg3) (ix1 o) := by
  obtain ⟨-, -, -, -, -, -, -, e0, e1⟩ := idx_facts t
  show V m c main_v4 (((cfg0.win 3).blk t).view.emb (ix2 (0 : Fin 1) o)) = _
  -- the window is the whole array: block index 0 on both axes, so the block's coordinates are the array's
  have hi : ((cfg0.win 3).blk t).view.emb (ix2 (0 : Fin 1) o) = (ix2 (0 : Fin 1) o : S1x768.Idx) := by
    funext a; apply Fin.ext
    match a with
    | ⟨0, _⟩ => show win0_3.index t (0 : Fin 2) * 1 + 1 * 0 = 0; omega
    | ⟨1, _⟩ => show win0_3.index t (1 : Fin 2) * 768 + 1 * o.val = o.val; omega
  refine (congrArg (V m c main_v4 : S1x768.Idx → EReal) hi).trans ?_
  rw [V_main_v4 m c]
  -- row-major position of (0, o) in [1, 768] is 0 × 768 + o = o, the position of o in [768]
  refine shapeCast_apply _ shapeCasts_S768_S1x768 (ix2 (0 : Fin 1) o) (ix1 o) ?_
  rw [Shape.rowMajor_val_two, Shape.rowMajor_val_one]
  show o.val = 0 * 768 + o.val
  omega

end Cert.KernelIdeal.KI

end
-- ==== Proof.KernelArray.lean ====
/-
  The idealized kernel's run ends with its result array at the specification.

  Grid point `t` writes back block `(t, 0, 0)` of the [16, 1024, 768] result: the body's output block for batch row
  `t`. That block is the specification of row `t` (Proof/KernelBlock.lean over the four input blocks, which are row `t` of
  `x`, the transposed weights and the bias row: Proof/KernelInputs.lean), i.e. block `t` of `Cert.Attn.attention` of the
  argument arrays. The 16 blocks are the 16 rows of the first axis, so they cover the array, which therefore ends holding
  `attention` everywhere.
-/
import proofs.«407775_j4569845203330_3_alg».proof.Proof.KernelIdealP.Value
import proofs.«407775_j4569845203330_3_alg».proof.Proof.KernelBlock
import proofs.«407775_j4569845203330_3_alg».proof.Proof.KernelInputs
import proofs.«407775_j4569845203330_3_alg».proof.Proof.Spec

set_option maxRecDepth 16384

noncomputable section

namespace Cert.KernelIdeal.KA

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification of the four argument arrays as launched on core `c`. -/
abbrev result (c : Dev nD) : S16x1024x768.Idx → EReal :=
  Cert.Attn.attention (m ((c : Thread nD τ).loc main_arg0)) (m ((c : Thread nD τ).loc main_arg1))
    (m ((c : Thread nD τ).loc main_arg2)) (m ((c : Thread nD τ).loc main_arg3))

/-- The result window's index map: point `t` writes block `(t, 0, 0)`. -/
theorem idx_facts4 : ∀ t : Fin cfg0.N, win0_4.index t (0 : Fin 3) = t.val ∧ win0_4.index t (1 : Fin 3) = 0
    ∧ win0_4.index t (2 : Fin 3) = 0 :=
  (by decide +kernel : ∀ t : Fin grid0.N, _)

/-- The body's output block at point `t`, at a block index `j`, is the specification at the array index block `(t, 0, 0)`
    puts `j` at: row `t` of the first axis, `j`'s other two coordinates unchanged. -/
theorem block_eq (c : Dev nD) (t : Fin cfg0.N) (j : S1x1024x768.Idx) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (KI.xBlk m c t) (KI.wqBlk m c t) (KI.wpBlk m c t) (KI.bBlk m c t) j
      = result m c (((cfg0.win 4).blk t).view.emb j) := by
  obtain ⟨z, n, o, rfl⟩ : ∃ (z : Fin 1) (n : Fin 1024) (o : Fin 768), j = ix3 z n o := ⟨j 0, j 1, j 2, eq_ix3 j⟩
  obtain rfl : z = 0 := Subsingleton.elim z 0
  obtain ⟨e0, e1, e2⟩ := idx_facts4 t
  have he : ((cfg0.win 4).blk t).view.emb (ix3 (0 : Fin 1) n o) = ix3 (KI.rowOf t) n o := by
    funext a; apply Fin.ext
    match a with
    | ⟨0, _⟩ => show win0_4.index t (0 : Fin 3) * 1 + 1 * 0 = t.val; omega
    | ⟨1, _⟩ => show win0_4.index t (1 : Fin 3) * 1024 + 1 * n.val = n.val; omega
    | ⟨2, _⟩ => show win0_4.index t (2 : Fin 3) * 768 + 1 * o.val = o.val; omega
  have h0 : (fun (n : Fin 1024) (cc : Fin 768) => KI.xBlk m c t (ix3 (0 : Fin 1) n cc))
      = Cert.Attn.xRow (m ((c : Thread nD τ).loc main_arg0)) (KI.rowOf t) := by
    funext n cc; exact KI.xBlk_apply m c t n cc
  have h1 : (fun (e : Fin 2304) (cc : Fin 768) => KI.wqBlk m c t (ix2 cc e))
      = Cert.Attn.wqAt (m ((c : Thread nD τ).loc main_arg1)) := by
    funext e cc; exact KI.wqBlk_apply m c t cc e
  have h2 : (fun (o : Fin 768) (cc : Fin 768) => KI.wpBlk m c t (ix2 cc o))
      = Cert.Attn.wpAt (m ((c : Thread nD τ).loc main_arg2)) := by
    funext o cc; exact KI.wpBlk_apply m c t cc o
  have h3 : (fun (o : Fin 768) => KI.bBlk m c t (ix2 (0 : Fin 1) o))
      = Cert.Attn.bpAt (m ((c : Thread nD τ).loc main_arg3)) := by
    funext o; exact KI.bBlk_apply m c t o
  rw [KB.out_block_apply, he, h0, h1, h2, h3]
  rfl

/-- WHAT POINT `t` WRITES BACK is block `t` of the specification. -/
theorem flushed_eq (c : Dev nD) (t : Fin cfg0.N) :
    (dats m 0 c).flushed 4 t = ((cfg0.win 4).blk t).view.read (Elt Ideal) (result m c) := by
  rw [Cert.KernelIdeal.ValueP.flushed4_A]
  funext j
  exact block_eq m c t j

/-- An index of the result array is in point `t`'s block iff each coordinate is in the block's range on its axis. -/
theorem mem_blk4 (t : Fin cfg0.N) (i : S16x1024x768.Idx) :
    i ∈ ((cfg0.win 4).blk t).view.set ↔ ∀ a : Fin 3, win0_4.index t a * S1x1024x768.size a ≤ (i a).val
      ∧ (i a).val < win0_4.index t a * S1x1024x768.size a + S1x1024x768.size a := by
  show i ∈ ((View.whole main_v5).slice (win0_4.rect t)).set ↔ _
  rw [View.set_slice_whole, Rect.mem_set_unit]
  exact Iff.rfl

/-- Every index of the result array is in the block of the point its first coordinate names. -/
theorem cover (i : S16x1024x768.Idx) :
    ∃ t : Fin cfg0.N, (cfg0.win 4).flush t = true ∧ i ∈ ((cfg0.win 4).blk t).view.set := by
  have hi0 : (i 0).val < 16 := (i 0).isLt
  have hi1 : (i 1).val < 1024 := (i 1).isLt
  have hi2 : (i 2).val < 768 := (i 2).isLt
  refine ⟨Fin.cast N_0.symm ⟨(i 0).val, hi0⟩, flush0_4 _, ?_⟩
  obtain ⟨e0, e1, e2⟩ := idx_facts4 (Fin.cast N_0.symm ⟨(i 0).val, hi0⟩)
  have ev : (Fin.cast N_0.symm (⟨(i 0).val, hi0⟩ : Fin 16)).val = (i 0).val := rfl
  rw [mem_blk4]
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 1024 ≤ (i 1).val ∧ (i 1).val < win0_4.index _ (1 : Fin 3) * 1024 + 1024
    omega
  | ⟨2, _⟩ =>
    show win0_4.index _ (2 : Fin 3) * 768 ≤ (i 2).val ∧ (i 2).val < win0_4.index _ (2 : Fin 3) * 768 + 768
    omega

/-- THE RESULT ARRAY after the run is the specification of the argument arrays. -/
theorem final (c : Dev nD) : (dats m 0 c).arrAt 4 cfg0.N = result m c :=
  (dats m 0 c).arrAt_eq_of_cover 4 (result m c) (fun t _ => flushed_eq m c t) cover

/-- The idealized kernel's run: it terminates with its result at the specification and its arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.ValueP.run_blocks m ρ)

end Cert.KernelIdeal.KA

end
-- ==== Proof.RefValue.lean ====
/-
  The reference's result, read back one operation at a time, is the specification's `attention` with every weight
  normalised first: at `(b, n, o)` the last stage of the reference's run is `Cert.Attn.attentionRefAt` of the four
  argument arrays.
-/
import proofs.«407775_j4569845203330_3_alg».proof.Proof.Gen.ReferenceIdeal.Read
import proofs.«407775_j4569845203330_3_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Attn

variable (x0 : (⟨S16x1024x768, .f32⟩ : BufTy).Contents (Elt Ideal)) (x1 : (⟨S2304x768, .f32⟩ : BufTy).Contents (Elt Ideal))

/-! ## The fused projection -/

/-- Element `(b, n, e)` of the first product is the fused projection of batch row `b` at `(n, e)`: the sum over the
    768 input columns of the input times the fused weight's row `e`. -/
theorem v0_eq (b : Fin 16) (n : Fin 1024) (e : Fin 2304) :
    val_main_v0 (F := Ideal) x0 x1 (ix3 b n e) = fused (xRow x0 b) (wqAt x1) n e := by
  rw [val_main_v0_apply]
  unfold fused xRow wqAt
  refine Finset.sum_congr rfl fun c _ => ?_
  have el : lidx_main_v0 (ix3 b n e) c = ix3 b n c :=
    funext fun a => by match a with | ⟨0, _⟩ => rfl | ⟨1, _⟩ => rfl | ⟨2, _⟩ => rfl
  have er : ridx_main_v0 (ix3 b n e) c = ix2 e c :=
    funext fun a => by match a with | ⟨0, _⟩ => rfl | ⟨1, _⟩ => rfl
  rw [el, er]

/-! ## Queries, keys and values

  The fused projection's 2304 columns are split `3 × 12 × 64` (slot, head, component) in row-major order, so the
  column of slot `s`, head `h`, component `d` is `(s · 12 + h) · 64 + d = s · 768 + h · 64 + d`. -/

/-- Splitting the columns: `(b, n, s, h, d)` of the five-axis view is `(b, n, col s h d)` of the projection. -/
theorem idx1_ix5 (b : Fin 16) (n : Fin 1024) (s : Fin 3) (h : Fin 12) (d : Fin 64) :
    idx_main_v1 (ix5 b n s h d) = ix3 b n (col s h d) := by
  have hb := b.isLt; have hn := n.isLt; have hs := s.isLt; have hh := h.isLt; have hd := d.isLt
  funext a
  match a with
  | ⟨0, _⟩ => exact Fin.ext (show ((((b.val * 1024 + n.val) * 3 + s.val) * 12 + h.val) * 64 + d.val) / 2359296 = b.val by omega)
  | ⟨1, _⟩ => exact Fin.ext (show ((((b.val * 1024 + n.val) * 3 + s.val) * 12 + h.val) * 64 + d.val) / 2304 % 1024 = n.val by omega)
  | ⟨2, _⟩ => exact Fin.ext (show ((((b.val * 1024 + n.val) * 3 + s.val) * 12 + h.val) * 64 + d.val) % 2304 = s.val * 768 + h.val * 64 + d.val by omega)

/-- The transpose puts the slot first and swaps rows with heads. -/
theorem idx2_ix5 (s : Fin 3) (b : Fin 16) (h : Fin 12) (n : Fin 1024) (d : Fin 64) :
    idx_main_v2 (ix5 s b h n d) = ix5 b n s h d :=
  funext fun a => by match a with | ⟨0, _⟩ => rfl | ⟨1, _⟩ => rfl | ⟨2, _⟩ => rfl | ⟨3, _⟩ => rfl | ⟨4, _⟩ => rfl

/-- Dropping the unit axis in front: `(b, h, n, d)` of the four-axis view is `(0, b, h, n, d)`. -/
theorem idx4_ix4 (b : Fin 16) (h : Fin 12) (n : Fin 1024) (d : Fin 64) :
    idx_main_v4 (ix4 b h n d) = ix5 (0 : Fin 1) b h n d := by
  have hb := b.isLt; have hh := h.isLt; have hn := n.isLt; have hd := d.isLt
  funext a
  match a with
  | ⟨0, _⟩ => rfl
  | ⟨1, _⟩ => exact Fin.ext (show (((b.val * 12 + h.val) * 1024 + n.val) * 64 + d.val) / 786432 % 16 = b.val by omega)
  | ⟨2, _⟩ => exact Fin.ext (show (((b.val * 12 + h.val) * 1024 + n.val) * 64 + d.val) / 65536 % 12 = h.val by omega)
  | ⟨3, _⟩ => exact Fin.ext (show (((b.val * 12 + h.val) * 1024 + n.val) * 64 + d.val) / 64 % 1024 = n.val by omega)
  | ⟨4, _⟩ => exact Fin.ext (show (((b.val * 12 + h.val) * 1024 + n.val) * 64 + d.val) % 64 = d.val by omega)

/-- The three slices take slot 0, 1 and 2. -/
theorem idx3_ix5 (b : Fin 16) (h : Fin 12) (n : Fin 1024) (d : Fin 64) :
    idx_main_v3 (ix5 (0 : Fin 1) b h n d) = ix5 (0 : Fin 3) b h n d :=
  funext fun a => by match a with | ⟨0, _⟩ => rfl | ⟨1, _⟩ => rfl | ⟨2, _⟩ => rfl | ⟨3, _⟩ => rfl | ⟨4, _⟩ => rfl
theorem idx5_ix5 (b : Fin 16) (h : Fin 12) (n : Fin 1024) (d : Fin 64) :
    idx_main_v5 (ix5 (0 : Fin 1) b h n d) = ix5 (1 : Fin 3) b h n d :=
  funext fun a => by match a with | ⟨0, _⟩ => rfl | ⟨1, _⟩ => rfl | ⟨2, _⟩ => rfl | ⟨3, _⟩ => rfl | ⟨4, _⟩ => rfl
theorem idx7_ix5 (b : Fin 16) (h : Fin 12) (n : Fin 1024) (d : Fin 64) :
    idx_main_v7 (ix5 (0 : Fin 1) b h n d) = ix5 (2 : Fin 3) b h n d :=
  funext fun a => by match a with | ⟨0, _⟩ => rfl | ⟨1, _⟩ => rfl | ⟨2, _⟩ => rfl | ⟨3, _⟩ => rfl | ⟨4, _⟩ => rfl

/-- The query of head `h` at row `n`, component `d`: slot 0 of the fused projection. -/
theorem v4_eq (b : Fin 16) (h : Fin 12) (n : Fin 1024) (d : Fin 64) :
    val_main_v4 (F := Ideal) x0 x1 (ix4 b h n d) = fused (xRow x0 b) (wqAt x1) n (col 0 h d) := by
  rw [val_main_v4_apply, val_main_v3_apply, val_main_v2_apply, val_main_v1_apply,
    idx4_ix4, idx3_ix5, idx2_ix5, idx1_ix5, v0_eq]

/-- The key: slot 1. -/
theorem v6_eq (b : Fin 16) (h : Fin 12) (n : Fin 1024) (d : Fin 64) :
    val_main_v6 (F := Ideal) x0 x1 (ix4 b h n d) = fused (xRow x0 b) (wqAt x1) n (col 1 h d) := by
  rw [val_main_v6_apply, val_main_v5_apply, val_main_v2_apply, val_main_v1_apply,
    show idx_main_v6 (ix4 b h n d) = ix5 (0 : Fin 1) b h n d from idx4_ix4 b h n d, idx5_ix5, idx2_ix5, idx1_ix5, v0_eq]

/-- The value: slot 2. -/
theorem v8_eq (b : Fin 16) (h : Fin 12) (n : Fin 1024) (d : Fin 64) :
    val_main_v8 (F := Ideal) x0 x1 (ix4 b h n d) = fused (xRow x0 b) (wqAt x1) n (col 2 h d) := by
  rw [val_main_v8_apply, val_main_v7_apply, val_main_v2_apply, val_main_v1_apply,
    show idx_main_v8 (ix4 b h n d) = ix5 (0 : Fin 1) b h n d from idx4_ix4 b h n d, idx7_ix5, idx2_ix5, idx1_ix5, v0_eq]

/-! ## Logits -/

/-- The scaled logit of query row `n` against key row `j` in head `h`: the product over the 64 components, times
    the scale. -/
theorem v11_eq (b : Fin 16) (h : Fin 12) (n j : Fin 1024) :
    val_main_v11 (F := Ideal) x0 x1 (ix4 b h n j) = logit (fused (xRow x0 b) (wqAt x1)) h n j := by
  rw [val_main_v11_apply, val_main_v10_apply, val_main_cst_apply, val_main_v9_apply]
  unfold logit
  refine congrArg (· * _) (Finset.sum_congr rfl fun d _ => ?_)
  have el : lidx_main_v9 (ix4 b h n j) d = ix4 b h n d :=
    funext fun a => by match a with | ⟨0, _⟩ => rfl | ⟨1, _⟩ => rfl | ⟨2, _⟩ => rfl | ⟨3, _⟩ => rfl
  have er : ridx_main_v9 (ix4 b h n j) d = ix4 b h j d :=
    funext fun a => by match a with | ⟨0, _⟩ => rfl | ⟨1, _⟩ => rfl | ⟨2, _⟩ => rfl | ⟨3, _⟩ => rfl
  rw [el, er, v4_eq, v6_eq]

/-! ## The row's maximum -/

/-- The key axis of the logits is the one the two reductions drop. -/
theorem reduces_keys : S16x12x1024x1024.Reduces [3] S16x12x1024 := by decide

/-- Putting key `j` back on the dropped axis of `(b, h, n)` gives `(b, h, n, j)`. -/
theorem lift_ix3 (b : Fin 16) (h : Fin 12) (n j : Fin 1024) :
    Shape.Reduces.lift reduces_keys (ix3 b h n) j = ix4 b h n j :=
  funext fun a => Fin.ext (by match a with | ⟨0, _⟩ => rfl | ⟨1, _⟩ => rfl | ⟨2, _⟩ => rfl | ⟨3, _⟩ => rfl)

/-- The reduction with `max` from `-∞` over the keys is the largest logit of the row. -/
theorem v12_eq (b : Fin 16) (h : Fin 12) (n : Fin 1024) :
    val_main_v12 (F := Ideal) x0 x1 (ix3 b h n) = rowMax (fused (xRow x0 b) (wqAt x1)) h n := by
  unfold val_main_v12
  rw [Host.reduce_eq_fold_single FloatOps.maximumf _ _ _ reduces_keys _ (ix3 b h n)]
  unfold rowMax
  show (Finset.univ : Finset (Fin 1024)).fold max (Ideal.ofBits .f32 0xFF800000#32)
      (fun j : Fin 1024 => val_main_v11 (F := Ideal) x0 x1 (Shape.Reduces.lift reduces_keys (ix3 b h n) j)) = _
  refine Finset.fold_congr fun j _ => ?_
  rw [lift_ix3, v11_eq]

/-- One more maximum with `-∞` changes nothing: `-∞` is the bottom of the extended reals. -/
theorem v14_eq (b : Fin 16) (h : Fin 12) (n : Fin 1024) :
    val_main_v14 (F := Ideal) x0 x1 (ix3 b h n) = rowMax (fused (xRow x0 b) (wqAt x1)) h n := by
  rw [val_main_v14_apply, val_main_v13_apply, val_main_cst_1_apply, v12_eq]
  show max (Ideal.ofBits .f32 0xFF800000#32) _ = _
  rw [ofBits_negInf]
  exact max_eq_right bot_le

/-! ## Weights and their sum -/

/-- The unnormalised weight: the exponential of the logit less the row's maximum. -/
theorem v18_eq (b : Fin 16) (h : Fin 12) (n j : Fin 1024) :
    val_main_v18 (F := Ideal) x0 x1 (ix4 b h n j) = weight (fused (xRow x0 b) (wqAt x1)) h n j := by
  rw [val_main_v18_apply, val_main_v17_apply, val_main_v16_apply, val_main_v15_apply, v11_eq]
  have ei : idx_main_v15 (idx_main_v16 (ix4 b h n j)) = ix3 b h n :=
    funext fun a => by match a with | ⟨0, _⟩ => rfl | ⟨1, _⟩ => rfl | ⟨2, _⟩ => rfl
  rw [ei, v14_eq]
  rfl

/-- The normaliser: zero plus the sum of the row's weights. -/
theorem v19_eq (b : Fin 16) (h : Fin 12) (n : Fin 1024) :
    val_main_v19 (F := Ideal) x0 x1 (ix3 b h n) = denom (fused (xRow x0 b) (wqAt x1)) h n := by
  rw [val_main_v19_apply, val_main_cst_2_apply]
  show Ideal.ofBits .f32 0x00000000#32 + _ = _
  rw [Ideal.ofBits_zero_f32, zero_add]
  unfold denom
  refine Finset.sum_congr rfl fun j _ => ?_
  have ei : idx_main_v19 (ix3 b h n) j = ix4 b h n j :=
    funext fun a => by match a with | ⟨0, _⟩ => rfl | ⟨1, _⟩ => rfl | ⟨2, _⟩ => rfl | ⟨3, _⟩ => rfl
  rw [ei, v18_eq]

/-- Each weight divided by the normaliser. -/
theorem v22_eq (b : Fin 16) (h : Fin 12) (n j : Fin 1024) :
    val_main_v22 (F := Ideal) x0 x1 (ix4 b h n j)
      = Ideal.div (weight (fused (xRow x0 b) (wqAt x1)) h n j) (denom (fused (xRow x0 b) (wqAt x1)) h n) := by
  rw [val_main_v22_apply, val_main_v21_apply, val_main_v20_apply, v18_eq]
  have ei : idx_main_v20 (idx_main_v21 (ix4 b h n j)) = ix3 b h n :=
    funext fun a => by match a with | ⟨0, _⟩ => rfl | ⟨1, _⟩ => rfl | ⟨2, _⟩ => rfl
  rw [ei, v19_eq]
  rfl

/-! ## The heads' outputs -/

/-- The head's output, every weight normalised before the sum over the keys. -/
theorem v23_eq (b : Fin 16) (h : Fin 12) (n : Fin 1024) (d : Fin 64) :
    val_main_v23 (F := Ideal) x0 x1 (ix4 b h n d) = headOutRef (fused (xRow x0 b) (wqAt x1)) h n d := by
  rw [val_main_v23_apply]
  unfold headOutRef
  refine Finset.sum_congr rfl fun j _ => ?_
  have el : lidx_main_v23 (ix4 b h n d) j = ix4 b h n j :=
    funext fun a => by match a with | ⟨0, _⟩ => rfl | ⟨1, _⟩ => rfl | ⟨2, _⟩ => rfl | ⟨3, _⟩ => rfl
  have er : ridx_main_v23 (ix4 b h n d) j = ix4 b h j d :=
    funext fun a => by match a with | ⟨0, _⟩ => rfl | ⟨1, _⟩ => rfl | ⟨2, _⟩ => rfl | ⟨3, _⟩ => rfl
  rw [el, er, v22_eq, v8_eq]

/-- Joining heads and components into one axis of 768: column `c` is component `c % 64` of head `c / 64`. -/
theorem idx25_ix3 (b : Fin 16) (n : Fin 1024) (c : Fin 768) :
    idx_main_v25 (ix3 b n c) = ix4 b n (headOf c) (compOf c) := by
  have hb := b.isLt; have hn := n.isLt; have hc := c.isLt
  funext a
  match a with
  | ⟨0, _⟩ => exact Fin.ext (show ((b.val * 1024 + n.val) * 768 + c.val) / 786432 = b.val by omega)
  | ⟨1, _⟩ => exact Fin.ext (show ((b.val * 1024 + n.val) * 768 + c.val) / 768 % 1024 = n.val by omega)
  | ⟨2, _⟩ => exact Fin.ext (show ((b.val * 1024 + n.val) * 768 + c.val) / 64 % 12 = c.val / 64 by omega)
  | ⟨3, _⟩ => exact Fin.ext (show ((b.val * 1024 + n.val) * 768 + c.val) % 64 = c.val % 64 by omega)

/-- The 12 heads side by side. -/
theorem v25_eq (b : Fin 16) (n : Fin 1024) (c : Fin 768) :
    val_main_v25 (F := Ideal) x0 x1 (ix3 b n c) = headsRef (fused (xRow x0 b) (wqAt x1)) n c := by
  rw [val_main_v25_apply, val_main_v24_apply, idx25_ix3]
  have ei : idx_main_v24 (ix4 b n (headOf c) (compOf c)) = ix4 b (headOf c) n (compOf c) :=
    funext fun a => by match a with | ⟨0, _⟩ => rfl | ⟨1, _⟩ => rfl | ⟨2, _⟩ => rfl | ⟨3, _⟩ => rfl
  rw [ei, v23_eq]
  rfl

/-! ## The output projection and its bias -/

/-- The reference's last stage at `(b, n, o)` is the specification's result there, in the reference's order of
    normalisation. -/
theorem result_eq (x0 : (⟨S16x1024x768, .f32⟩ : BufTy).Contents (Elt Ideal)) (x1 : (⟨S2304x768, .f32⟩ : BufTy).Contents (Elt Ideal))
    (x2 : (⟨S768x768, .f32⟩ : BufTy).Contents (Elt Ideal)) (x3 : (⟨S768, .f32⟩ : BufTy).Contents (Elt Ideal))
    (b : Fin 16) (n : Fin 1024) (o : Fin 768) :
    val_main_v29 (F := Ideal) x0 x1 x2 x3 (ix3 b n o) = Cert.Attn.attentionRefAt x0 x1 x2 x3 b n o := by
  rw [val_main_v29_apply, val_main_v28_apply, val_main_v27_apply, val_main_v26_apply]
  unfold attentionRefAt project wpAt bpAt
  have eb : idx_main_v27 (idx_main_v28 (ix3 b n o)) = ix1 o :=
    funext fun a => by match a with | ⟨0, _⟩ => rfl
  rw [eb]
  refine congrArg (· + x3 (ix1 o)) (Finset.sum_congr rfl fun c _ => ?_)
  have el : lidx_main_v26 (ix3 b n o) c = ix3 b n c :=
    funext fun a => by match a with | ⟨0, _⟩ => rfl | ⟨1, _⟩ => rfl | ⟨2, _⟩ => rfl
  have er : ridx_main_v26 (ix3 b n o) c = ix2 o c :=
    funext fun a => by match a with | ⟨0, _⟩ => rfl | ⟨1, _⟩ => rfl
  rw [el, er, v25_eq]

end Cert.ReferenceIdeal.RefValue

end
-- ==== Proof.Finite.lean ====
/-
  The precondition, decoded: where `finite_inputs` evaluates to all ones, every entry of `x` and of `w_qkv` is a
  real number. The predicate compares `|v|` with `+∞` entry by entry and conjoins the results over each array and
  then over the four arrays; an extended real whose absolute value `max v (-v)` lies strictly below `⊤` is neither
  `⊤` nor `⊥`, hence the embedding of a real.
-/
import proofs.«407775_j4569845203330_3_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The f32 pattern with all exponent bits set, sign clear and significand zero denotes `+∞`. -/
theorem ofBits_inf : Ideal.ofBits .f32 0x7F800000#32 = (⊤ : EReal) := by
  simp [Ideal.ofBits, Ideal.ieee]

/-- An extended real `v` with `|v| = max v (-v) < +∞` is a real number: at `v = ⊤` the maximum is `⊤`, at
    `v = ⊥` it is `-⊥ = ⊤`, and in both cases the strict comparison with `⊤` fails; what is left is the
    embedding of a real `r`, its own witness. -/
theorem real_of_abs_lt_top (v : EReal)
    (hv : Ideal.cmp .olt (max v (-v)) (Ideal.ofBits .f32 0x7F800000#32) = 1#1) : ∃ r : ℝ, v = (r : EReal) := by
  rw [ofBits_inf] at hv
  induction v using EReal.rec with
  | bot => simp [Ideal.cmp] at hv
  | coe r => exact ⟨r, rfl⟩
  | top => simp [Ideal.cmp] at hv

/-- The shape of rank 0 has exactly one index (the empty tuple of coordinates). -/
instance : Subsingleton S_.Idx := ⟨fun a b => funext fun d => d.elim0⟩

/-- Under the precondition the entries of the first two arguments are real numbers. -/
theorem real_of_pre [Cert.Pre_finite_inputs.Facts] (x0 : FVec Ideal S16x1024x768 .f32) (x1 : FVec Ideal S2304x768 .f32)
    (x2 : FVec Ideal S768x768 .f32) (x3 : FVec Ideal S768 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  -- The predicate's one bit, at the single index of the rank-0 result.
  have h0 := congrFun h ValueIdx.ix0
  dsimp only [Cert.Pre_finite_inputs.fn, Cert.Pre_finite_inputs.fn_part1] at h0
  -- It is `((a₀ ∧ a₁) ∧ a₂) ∧ a₃`, `aₖ` the conjunction of `|v| < +∞` over all entries `v` of the k-th array;
  -- a conjunction of bits is 1 exactly when both are, so `a₀ = 1` and `a₁ = 1`.
  obtain ⟨h012, -⟩ := IntOp.andi_eq_one.1 h0
  obtain ⟨h01, -⟩ := IntOp.andi_eq_one.1 h012
  obtain ⟨e0, e1⟩ := IntOp.andi_eq_one.1 h01
  -- A conjunction over all axes that is 1 had a 1 at every entry `i`: `|xₖ i| < +∞`, so `xₖ i` is real.
  exact ⟨fun i => real_of_abs_lt_top (x0 i) (Host.reduce_andi_all _ _ _ _ _ e0 i),
    fun i => real_of_abs_lt_top (x1 i) (Host.reduce_andi_all _ _ _ _ _ e1 i)⟩

end Cert.Finite

end
-- ==== Proof.lean ====
/-
  Multi-head self-attention fused into one kernel, against its plain jnp reference, over the extended reals.

  Both programs compute, for each of 16 batch rows, the fused projection `Q = x · w_qkvᵀ` (1024 × 2304), for each of 12
  heads the softmax attention of its 64 query columns against its 64 key columns — logits scaled by `1/8 = 64^(-1/2)`, a
  dyadic both programs spell with the same pattern, the row maximum subtracted before the exponential — weighing its 64 value
  columns, and the output projection `· w_projᵀ + b_proj` of the 12 heads' outputs side by side. The kernel keeps `Q` and the
  heads' outputs in scratch arrays and runs the heads in a counted loop; every change of float format in it is the identity
  on extended reals, its matrix products into a zero accumulator are the host's `dot_general`, its lane reductions the host's
  `reduce`. ONE thing differs: the kernel divides a head's weighted sum of values by the sum of the weights ONCE, the
  reference divides every weight first. A quotient does not distribute over a sum at the infinities, so the two agree only
  because the precondition makes every entry of `x` and `w_qkv` a real number (Proof/Finite.lean): then `Q` is real, the
  weights are exponentials of reals, their sum is a positive real, and the law is `(∑ a j) · c = ∑ a j · c` in ℝ
  (Proof/Softmax.lean, Proof/Spec.lean).

  Both runs are stated to end at ONE function of the argument arrays, `Cert.Attn.attention` (Proof/Spec.lean): the kernel's
  result array block by block (Proof/KernelScratch.lean: the twelve heads' stores read back as one function;
  Proof/KernelPayProj.lean, Proof/KernelPayHead.lean: the body's three stored values at an index; Proof/KernelBlock.lean,
  Proof/KernelInputs.lean, Proof/KernelArray.lean: the block at a grid point and the 16 blocks as the array), the reference's
  one operation at a time (Proof/RefValue.lean). The three frame claims are the programs' runs with the result dropped; the
  idealization rewrote no operation, so `preserves` is `True`.
-/
import proofs.«407775_j4569845203330_3_alg».proof.Defs
import proofs.«407775_j4569845203330_3_alg».proof.Proof.Gen.Kernel
import proofs.«407775_j4569845203330_3_alg».proof.Proof.Gen.KernelIdeal
import proofs.«407775_j4569845203330_3_alg».proof.Proof.Gen.ReferenceIdeal
import proofs.«407775_j4569845203330_3_alg».proof.Proof.Gen.Pre_finite_inputs
import proofs.«407775_j4569845203330_3_alg».proof.Proof.Gen.ReferenceIdeal.Run
import proofs.«407775_j4569845203330_3_alg».proof.Proof.Gen.ReferenceIdeal.Read
import proofs.«407775_j4569845203330_3_alg».proof.Proof.KernelP.Frame
import proofs.«407775_j4569845203330_3_alg».proof.Proof.KernelIdealP.Frame
import proofs.«407775_j4569845203330_3_alg».proof.Proof.KernelArray
import proofs.«407775_j4569845203330_3_alg».proof.Proof.RefValue
import proofs.«407775_j4569845203330_3_alg».proof.Proof.Finite
import proofs.«407775_j4569845203330_3_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs, faults nowhere and leaves its arguments as they were. -/
theorem frame_kernel : Cert.frame_Kernel := fun m ρ _ => Cert.Kernel.GenP.frame m ρ

/-- So does the kernel read at the extended reals. -/
theorem frame_kernelIdeal : Cert.frame_KernelIdeal := fun m ρ _ => Cert.KernelIdeal.GenP.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the four arguments both programs end at `Cert.Attn.attention` of them: the kernel by its
    blocks, the reference stage by stage in the other order of normalisation, the two orders one where the precondition
    makes `x` and `w_qkv` real. -/
theorem algebraic : Cert.algebraic_KernelIdeal_ReferenceIdeal := by
  intro m ρ m' ρ' hpre hagree
  refine ⟨fun c => Cert.KernelIdeal.KA.result m c, Cert.KernelIdeal.KA.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2]
  obtain ⟨hx, hwq⟩ := Cert.Finite.real_of_pre _ _ _ _ (hpre c)
  funext i
  obtain ⟨b, n, o, rfl⟩ : ∃ (b : Fin 16) (n : Fin 1024) (o : Fin 768), i = ix3 b n o := ⟨i 0, i 1, i 2, eq_ix3 i⟩
  rw [Cert.ReferenceIdeal.RefValue.result_eq]
  exact (Cert.Attn.attentionAt_eq_attentionRefAt _ _ _ _ hx hwq b n o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
